-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x128 : Shape := ⟨2, ![2097152, 128]⟩
abbrev S2097152 : Shape := ⟨1, ![2097152]⟩
abbrev S_ : Shape := ⟨0, ![]⟩

class Facts : Prop where
  bcast_S_S2097152x128 : S_.BroadcastsInDim S2097152x128 (![] : Fin 0 → Fin S2097152x128.rank)
  reducesTo_S2097152x128_S_d0_1 : S2097152x128.ReducesTo [0, 1] S_
  h_S_ : 0 < S_.numel
  bcast_S_S2097152 : S_.BroadcastsInDim S2097152 (![] : Fin 0 → Fin S2097152.rank)
  reducesTo_S2097152_S_d0 : S2097152.ReducesTo [0] S_

variable [Facts]

def fn {F : FTy → Type} [FloatOps F] (main_arg0 : FVec F S2097152x128 .f32) (main_arg1 : IVec S2097152 32) : IVec S_ 1 :=
  let main_v0 : FVec F S2097152x128 .f32 := Host.absf main_arg0
  let main_cst : FVec F S_ .f32 := constant S_ .f32 0x7F800000#32
  let main_v1 : FVec F S2097152x128 .f32 := broadcastInDim S2097152x128 ![] bcast_S_S2097152x128 main_cst
  let main_v2 : IVec S2097152x128 1 := cmpf .olt main_v0 main_v1
  let main_c : IVec S_ 1 := constantI S_ 1 1#1
  let main_v3 : IVec S_ 1 := (fun x v => Host.reduce IntOp.andi x v reducesTo_S2097152x128_S_d0_1 h_S_) main_v2 main_c
  let main_c_0 : IVec S_ 32 := constantI S_ 32 0#32
  let main_v4 : IVec S2097152 32 := broadcastInDim S2097152 ![] bcast_S_S2097152 main_c_0
  let main_v5 : IVec S2097152 1 := cmpi .sge main_arg1 main_v4
  let main_c_1 : IVec S_ 32 := constantI S_ 32 128#32
  let main_v6 : IVec S2097152 32 := broadcastInDim S2097152 ![] bcast_S_S2097152 main_c_1
  let main_v7 : IVec S2097152 1 := cmpi .slt main_arg1 main_v6
  let main_v8 : IVec S2097152 1 := andi main_v5 main_v7
  let main_c_2 : IVec S_ 1 := constantI S_ 1 1#1
  let main_v9 : IVec S_ 1 := (fun x v => Host.reduce IntOp.andi x v reducesTo_S2097152_S_d0 h_S_) main_v8 main_c_2
  let main_v10 : IVec S_ 1 := andi main_v3 main_v9
  main_v10
-- ==== Kernel.lean ====
abbrev S2097152x128 : Shape := ⟨2, ![2097152, 128]⟩
abbrev S2097152 : Shape := ⟨1, ![2097152]⟩
abbrev S16384x128 : Shape := ⟨2, ![16384, 128]⟩
abbrev S2x1x1 : Shape := ⟨3, ![2, 1, 1]⟩
abbrev S8192x128 : Shape := ⟨2, ![8192, 128]⟩
abbrev S64x128 : Shape := ⟨2, ![64, 128]⟩
abbrev S1x1x1 : Shape := ⟨3, ![1, 1, 1]⟩
abbrev S1x1x128 : Shape := ⟨3, ![1, 1, 128]⟩
abbrev S8192x1 : Shape := ⟨2, ![8192, 1]⟩
abbrev S8192 : Shape := ⟨1, ![8192]⟩
abbrev S1 : Shape := ⟨1, ![1]⟩
abbrev S1x1 : Shape := ⟨2, ![1, 1]⟩
abbrev S_ : Shape := ⟨0, ![]⟩

abbrev nBuf : Space → Nat
  | .hbm => 13
  | .vmem => 7
  | .smem => 0
  | _ => 0

abbrev bufTy : (tb : Table) → Fin (tcTables nBuf tb) → BufTy
  | .hbm, ⟨0, _⟩ => ⟨S2097152x128, .f32⟩
  | .hbm, ⟨1, _⟩ => ⟨S2097152, .i32⟩
  | .hbm, ⟨2, _⟩ => ⟨S16384x128, .i32⟩
  | .hbm, ⟨3, _⟩ => ⟨S2x1x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S64x128, .i32⟩
  | .local _ .vmem, ⟨3, _⟩ => ⟨S64x128, .i32⟩
  | .local _ .vmem, ⟨4, _⟩ => ⟨S1x1x1, .f32⟩
  | .local _ .vmem, ⟨5, _⟩ => ⟨S1x1x1, .f32⟩
  | .local _ .vmem, ⟨6, _⟩ => ⟨S1x1x128, .f32⟩
  | _, _ => ⟨S2097152x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 128], ![false, false]⟩

def k0_cond2 (i : grid0.Coords) : BitVec 1 :=
  let arg1 : BitVec 32 := BitVec.ofNat 32 (i 1).val
  let c127_i32 : BitVec 32 := 127#32
  let v39 : BitVec 1 := Scalar.cmpi .eq arg1 c127_i32
  let v40 : BitVec 32 := Scalar.extui v39
  let c0_i32_15 : BitVec 32 := 0#32
  let v41 : BitVec 1 := Scalar.cmpi .ne v40 c0_i32_15
  v41

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S2097152_S16384x128 : S2097152.ShapeCasts S16384x128
  inb_S1x1x128_S1x1x128_0_0_0 : ∀ a, (![0, 0, 0] : Fin 3 → Nat) a + S1x1x128.size a ≤ S1x1x128.size a
  h_S1x1x128 : 0 < S1x1x128.numel
  shapeCasts_S1x1x128_S1x1x128 : S1x1x128.ShapeCasts S1x1x128
  inb_S8192x128_S8192x128_0_0 : ∀ a, (![0, 0] : Fin 2 → Nat) a + S8192x128.size a ≤ S8192x128.size a
  h_S8192x128 : 0 < S8192x128.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  shapeCasts_S64x128_S8192x1 : S64x128.ShapeCasts S8192x1
  reduces_S8192x128_S8192 : S8192x128.Reduces [1] S8192
  shapeCasts_S8192_S8192x1 : S8192.ShapeCasts S8192x1
  broadcasts_S8192x1_S8192x128 : S8192x1.Broadcasts S8192x128
  iota_S8192x128_d1_w32 : S8192x128.Iotas .tc 32 [1]
  reduces_S8192x1_S1 : S8192x1.Reduces [0] S1
  shapeCasts_S1_S1x1 : S1.ShapeCasts S1x1
  iota_S1x1x128_d2_w32 : S1x1x128.Iotas .tc 32 [2]
  shapeCasts_S1x1_S1x1x1 : S1x1.ShapeCasts S1x1x1
  broadcasts_S1x1x1_S1x1x128 : S1x1x1.Broadcasts S1x1x128
  reduces_S1x1x128_S1x1 : S1x1x128.Reduces [2] S1x1
  inb_S1x1x1_S1x1x1_0_0_0 : ∀ a, (![0, 0, 0] : Fin 3 → Nat) a + S1x1x1.size a ≤ S1x1x1.size a
  h_S1x1x1 : 0 < S1x1x1.numel
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S2097152x128.size a
  hwx0_0 : ∀ i : grid0.Coords, EltTy.bits .f32 = 32 ∨ (Rect.block (s := S2097152x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S16384x128.size a
  hwx0_1 : ∀ i : grid0.Coords, EltTy.bits .i32 = 32 ∨ (Rect.block (s := S16384x128) S64x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2097152x128 : Shape := ⟨2, ![2097152, 128]⟩
abbrev S2097152 : Shape := ⟨1, ![2097152]⟩
abbrev S_ : Shape := ⟨0, ![]⟩
abbrev S2097152x1 : Shape := ⟨2, ![2097152, 1]⟩
abbrev S2097152x1x1 : Shape := ⟨3, ![2097152, 1, 1]⟩
abbrev S1 : Shape := ⟨1, ![1]⟩
abbrev S1x1x1 : Shape := ⟨3, ![1, 1, 1]⟩

abbrev nBuf : Space → Nat
  | .hbm => 51
  | .vmem => 0
  | .smem => 0
  | _ => 0

abbrev bufTy : (tb : Table) → Fin (tcTables nBuf tb) → BufTy
  | .hbm, ⟨0, _⟩ => ⟨S2097152x128, .f32⟩
  | .hbm, ⟨1, _⟩ => ⟨S2097152, .i32⟩
  | .hbm, ⟨2, _⟩ => ⟨S_, .f32⟩
  | .hbm, ⟨3, _⟩ => ⟨S2097152, .f32⟩
  | .hbm, ⟨4, _⟩ => ⟨S_, .f32⟩
  | .hbm, ⟨5, _⟩ => ⟨S2097152, .f32⟩
  | .hbm, ⟨6, _⟩ => ⟨S2097152, .f32⟩
  | .hbm, ⟨7, _⟩ => ⟨S2097152x1, .f32⟩
  | .hbm, ⟨8, _⟩ => ⟨S2097152x128, .f32⟩
  | .hbm, ⟨9, _⟩ => ⟨S2097152x128, .f32⟩
  | .hbm, ⟨10, _⟩ => ⟨S2097152x128, .f32⟩
  | .hbm, ⟨11, _⟩ => ⟨S_, .f32⟩
  | .hbm, ⟨12, _⟩ => ⟨S2097152, .f32⟩
  | .hbm, ⟨13, _⟩ => ⟨S2097152x1, .f32⟩
  | .hbm, ⟨14, _⟩ => ⟨S2097152x1, .f32⟩
  | .hbm, ⟨15, _⟩ => ⟨S2097152x128, .f32⟩
  | .hbm, ⟨16, _⟩ => ⟨S2097152x128, .f32⟩
  | .hbm, ⟨17, _⟩ => ⟨S2097152x1, .i32⟩
  | .hbm, ⟨18, _⟩ => ⟨S_, .i32⟩
  | .hbm, ⟨19, _⟩ => ⟨S2097152x1, .i32⟩
  | .hbm, ⟨20, _⟩ => ⟨S2097152x1, .i1⟩
  | .hbm, ⟨21, _⟩ => ⟨S_, .i32⟩
  | .hbm, ⟨22, _⟩ => ⟨S2097152x1, .i32⟩
  | .hbm, ⟨23, _⟩ => ⟨S2097152x1, .i32⟩
  | .hbm, ⟨24, _⟩ => ⟨S2097152x1, .i32⟩
  | .hbm, ⟨25, _⟩ => ⟨S2097152x1x1, .i32⟩
  | .hbm, ⟨26, _⟩ => ⟨S1, .i32⟩
  | .hbm, ⟨27, _⟩ => ⟨S_, .i32⟩
  | .hbm, ⟨28, _⟩ => ⟨S2097152x1x1, .i32⟩
  | .hbm, ⟨29, _⟩ => ⟨S2097152x1x1, .i1⟩
  | .hbm, ⟨30, _⟩ => ⟨S1x1x1, .i32⟩
  | .hbm, ⟨31, _⟩ => ⟨S2097152x1x1, .i32⟩
  | .hbm, ⟨32, _⟩ => ⟨S2097152x1x1, .i1⟩
  | .hbm, ⟨33, _⟩ => ⟨S2097152x1x1, .i1⟩
  | .hbm, ⟨34, _⟩ => ⟨S_, .i1⟩
  | .hbm, ⟨35, _⟩ => ⟨S2097152x1, .i1⟩
  | .hbm, ⟨36, _⟩ => ⟨S2097152x1, .f32⟩
  | .hbm, ⟨37, _⟩ => ⟨S_, .f32⟩
  | .hbm, ⟨38, _⟩ => ⟨S2097152x1, .f32⟩
  | .hbm, ⟨39, _⟩ => ⟨S2097152x1, .f32⟩
  | .hbm, ⟨40, _⟩ => ⟨S2097152, .f32⟩
  | .hbm, ⟨41, _⟩ => ⟨S2097152, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | _, _ => ⟨S2097152x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_c_1 : Ref sig .tc := ⟨.hbm, 26, rfl⟩
abbrev main_call1_c_2 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_3 : Ref sig .tc := ⟨.hbm, 34, rfl⟩
abbrev main_call1_v12 : Ref sig .tc := ⟨.hbm, 35, rfl⟩
abbrev main_call1_v13 : Ref sig .tc := ⟨.hbm, 36, rfl⟩
abbrev main_call1_cst : Ref sig .tc := ⟨.hbm, 37, rfl⟩
abbrev main_call1_v14 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_cst : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_cst_0 : Ref sig .tc := ⟨.hbm, 46, rfl⟩
abbrev main_v8 : Ref sig .tc := ⟨.hbm, 47, rfl⟩
abbrev main_cst_1 : Ref sig .tc := ⟨.hbm, 48, rfl⟩
abbrev main_v9 : Ref sig .tc := ⟨.hbm, 49, rfl⟩
abbrev main_v10 : Ref sig .tc := ⟨.hbm, 50, rfl⟩

abbrev nD : Nat := 1
abbrev τ : Topo := Topo.v7x

variable {F : FTy → Type} [FloatOps F]

class Facts₀ : Prop where
  reducesTo_S2097152x128_S2097152_d1 : S2097152x128.ReducesTo [1] S2097152
  h_S_ : 0 < S_.numel
  bcast_S_S2097152 : S_.BroadcastsInDim S2097152 (![] : Fin 0 → Fin S2097152.rank)
  bcast_S2097152_S2097152x1_0 : S2097152.BroadcastsInDim S2097152x1 (![0] : Fin 1 → Fin S2097152x1.rank)
  bcast_S2097152x1_S2097152x128_0_1 : S2097152x1.BroadcastsInDim S2097152x128 (![0, 1] : Fin 2 → Fin S2097152x128.rank)
  bcast_S_S2097152x1 : S_.BroadcastsInDim S2097152x1 (![] : Fin 0 → Fin S2097152x1.rank)
  shapeCasts_S2097152x1_S2097152x1x1 : S2097152x1.ShapeCasts S2097152x1x1
  bcast_S_S2097152x1x1 : S_.BroadcastsInDim S2097152x1x1 (![] : Fin 0 → Fin S2097152x1x1.rank)
  bcast_S1_S1x1x1_2 : S1.BroadcastsInDim S1x1x1 (![2] : Fin 1 → Fin S1x1x1.rank)
  bcast_S1x1x1_S2097152x1x1_0_1_2 : S1x1x1.BroadcastsInDim S2097152x1x1 (![0, 1, 2] : Fin 3 → Fin S2097152x1x1.rank)
  reducesTo_S2097152x1x1_S2097152x1_d2 : S2097152x1x1.ReducesTo [2] S2097152x1
  shapeCasts_S2097152x1_S2097152 : S2097152x1.ShapeCasts S2097152
  reducesTo_S2097152_S_d0 : S2097152.ReducesTo [0] S_
  gather_S2097152x128_S2097152x1x1_S2097152x1_n_1_0_0_1_2_11_wf : GatherDims.WF S2097152x128 S2097152x1x1 S2097152x1 [] [1] [0] [1] [0] 2 ![1, 1]

variable [Facts₀]

def gather_S2097152x128_S2097152x1x1_S2097152x1_n_1_0_0_1_2_11 : GatherDims S2097152x128 S2097152x1x1 S2097152x1 where
  offsetDims := []
  collapsedSliceDims := [1]
  operandBatchingDims := [0]
  startIndicesBatchingDims := [0]
  startIndexMap := [1]
  indexVectorDim := 2
  sliceSizes := ![1, 1]
  wf := gather_S2097152x128_S2097152x1x1_S2097152x1_n_1_0_0_1_2_11_wf

class Facts : Prop extends Facts₀ where

variable [Facts]
-- ==== Proof.KPieces.lean ====
import proofs.«425999_j37306085933679_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]

/-! What each control case of the body leaves behind, as the body's own payload terms.

  The body keeps a 128-lane accumulator in scratch.  At the first tile of a core (case A) it stores zeros,
  reads them back and stores the updated vector; at the other tiles (cases B and C) it updates the vector the
  tile before left; at the last tile of a core (case C) it also stores the lane sum of the updated vector
  into the output block.  Every store covers its whole buffer at offset zero, so what a buffer holds
  afterwards is the last store's payload, and a load after a store reads that payload back. -/

theorem hz2 : (![0, 0] : Fin 2 → Nat) = fun _ => 0 := funext fun a => by fin_cases a <;> rfl
theorem hz3 : (![0, 0, 0] : Fin 3 → Nat) = fun _ => 0 := funext fun a => by fin_cases a <;> rfl

/-- Case A (first tile of a core): the accumulator ends at the update of the zero vector. -/
theorem sout_A (c : Dev nD) (i : grid0.Coords) (a2 : Memref sig .tc .vmem S8192x128 .f32) (h2 : a2.IsWhole)
    (a3 : Memref sig .tc .vmem S64x128 .i32) (h3 : a3.IsWhole) (a4 : Memref sig .tc .vmem S1x1x1 .f32) (h4 : a4.IsWhole)
    (a5 : Memref sig .tc .vmem S1x1x128 .f32) (h5 : a5.IsWhole) (hc0 : cond0_0 i) (hc1 : ¬cond0_1 i)
    (x0 : Vec F S8192x128 .f32) (x1 : Vec F S64x128 .i32) :
    sout0_A_0 c i a2 h2 a3 h3 a4 h4 a5 h5 hc0 hc1 x0 x1 = k0_pay1 (k0_pay4 i x0 x1 (k0_pay3 (F := F))) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x1x128) hz3]
  simp only [View.readAt_eq_ld, h2.read_unread, h3.read_unread, View.readCov_unit_zero (S := S1x1x128) _ hz3,
    View.ld_unit_zero (S := S8192x128) hz2, View.ld_unit_zero (S := S64x128) hz2, View.ld_unit_zero (S := S1x1x128) hz3]

/-- Case B (a middle tile): the accumulator ends at the update of what the tile before left. -/
theorem sout_B (c : Dev nD) (i : grid0.Coords) (a2 : Memref sig .tc .vmem S8192x128 .f32) (h2 : a2.IsWhole)
    (a3 : Memref sig .tc .vmem S64x128 .i32) (h3 : a3.IsWhole) (a4 : Memref sig .tc .vmem S1x1x1 .f32) (h4 : a4.IsWhole)
    (a5 : Memref sig .tc .vmem S1x1x128 .f32) (h5 : a5.IsWhole) (hc0 : ¬cond0_0 i) (hc1 : ¬cond0_1 i)
    (x0 : Vec F S8192x128 .f32) (x1 : Vec F S64x128 .i32) (xs0 : Vec F S1x1x128 .f32) :
    sout0_B_0 c i a2 h2 a3 h3 a4 h4 a5 h5 hc0 hc1 x0 x1 xs0 = k0_pay1 (k0_pay4 i x0 x1 xs0) := by
  unfold sout0_B_0
  rw [View.read_writes_eq_canon _ _ _ (scover0_B_0 c i a2 h2 a3 h3 a4 h4 a5 h5 hc0 hc1 x0 x1 xs0)]
  unfold kernelRun0_B
  dsimp only
  sl_unfold_words
  rw [View.canon_unit_zero hz3]
  simp only [View.readAt_eq_ld, h2.read_unread, h3.read_unread, h5.read_unread,
    View.ld_unit_zero (S := S8192x128) hz2, View.ld_unit_zero (S := S64x128) hz2, View.ld_unit_zero (S := S1x1x128) hz3]

/-- Case C (last tile of a core): the accumulator likewise, -/
theorem sout_C (c : Dev nD) (i : grid0.Coords) (a2 : Memref sig .tc .vmem S8192x128 .f32) (h2 : a2.IsWhole)
    (a3 : Memref sig .tc .vmem S64x128 .i32) (h3 : a3.IsWhole) (a4 : Memref sig .tc .vmem S1x1x1 .f32) (h4 : a4.IsWhole)
    (a5 : Memref sig .tc .vmem S1x1x128 .f32) (h5 : a5.IsWhole) (hc0 : ¬cond0_0 i) (hc1 : cond0_1 i)
    (x0 : Vec F S8192x128 .f32) (x1 : Vec F S64x128 .i32) (xs0 : Vec F S1x1x128 .f32) :
    sout0_C_0 c i a2 h2 a3 h3 a4 h4 a5 h5 hc0 hc1 x0 x1 xs0 = k0_pay1 (k0_pay4 i x0 x1 xs0) := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz3]
  simp only [View.readAt_eq_ld, h2.read_unread, h3.read_unread, h5.read_unread,
    View.ld_unit_zero (S := S8192x128) hz2, View.ld_unit_zero (S := S64x128) hz2, View.ld_unit_zero (S := S1x1x128) hz3]

/-- and the output block holds the lane sum of the accumulator just stored. -/
theorem out_C (c : Dev nD) (i : grid0.Coords) (a2 : Memref sig .tc .vmem S8192x128 .f32) (h2 : a2.IsWhole)
    (a3 : Memref sig .tc .vmem S64x128 .i32) (h3 : a3.IsWhole) (a4 : Memref sig .tc .vmem S1x1x1 .f32) (h4 : a4.IsWhole)
    (a5 : Memref sig .tc .vmem S1x1x128 .f32) (h5 : a5.IsWhole) (hc0 : ¬cond0_0 i) (hc1 : cond0_1 i)
    (x0 : Vec F S8192x128 .f32) (x1 : Vec F S64x128 .i32) (xs0 : Vec F S1x1x128 .f32) :
    out0_C_2 c i a2 h2 a3 h3 a4 h4 a5 h5 hc0 hc1 x0 x1 xs0 = k0_pay2 (k0_pay1 (k0_pay4 i x0 x1 xs0)) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz3]
  simp only [View.readAt_eq_ld, h2.read_unread, h3.read_unread, h5.read_unread, View.readCov_unit_zero (S := S1x1x128) _ hz3,
    View.ld_unit_zero (S := S8192x128) hz2, View.ld_unit_zero (S := S64x128) hz2, View.ld_unit_zero (S := S1x1x128) hz3]

end Cert.KernelIdeal.KValue

end
-- ==== Proof.Spec.lean ====
/-
  The mathematics both programs compute, stated once over the extended reals, with no program in sight.

  A row of 128 logits `v` and a class index `k`.  With `M = max_c v c` (taken from −∞) and
  `L = log (∑_c exp (v c − M))`, the cross entropy of the row is written two ways:
    * `(M + L) − ∑_c [c = k] · v c`      (a masked lane sum picks the target logit),
    * `−((v k − M) − L)`                  (the target entry of the log-softmax, negated).
  For finite logits these are the same real number.  The total is the sum over all
  2097152 rows; one side sums it as 2 × 128 × 8192 (cores × tiles × rows of a tile), the other in one
  go — the same finite sum re-indexed (both facts are proved in the algebra module).  The focal scaling `(1 − exp (−S))² · S` is
  applied to the total by both sides through the same operations (`focalTail`).
-/
import Idealize.ShloMosaic.PureOps.Ideal
import Idealize.ShloMosaic.PureOps.Ideal.Laws
import Idealize.ShloMosaic.Lib.ValueIdx

noncomputable section

open scoped BigOperators

namespace CESum

open Idealize.ShloMosaic Idealize.ShloMosaic.ValueIdx

/-- The logits' shape, the targets' shape, the scalar shape. -/
abbrev SX : Shape := ⟨2, ![2097152, 128]⟩
abbrev ST : Shape := ⟨1, ![2097152]⟩
abbrev S0 : Shape := ⟨0, ![]⟩

/-- Row `n` of the logits. -/
def rowOf (x : SX.Idx → EReal) (n : Fin 2097152) : Fin 128 → EReal := fun c => x (ix2 n c)

/-- Row `n`'s target word. -/
def tgtOf (t : ST.Idx → BitVec 32) (n : Fin 2097152) : BitVec 32 := t (ix1 n)

/-- A row's maximum, folded from −∞. -/
def rowMax (v : Fin 128 → EReal) : EReal := (Finset.univ : Finset (Fin 128)).fold max ⊥ v

/-- The shifted log-sum-exp's logarithm: `log ∑_c exp (v c − M)`. -/
def logSum (v : Fin 128 → EReal) : EReal := Ideal.log (∑ c : Fin 128, Ideal.exp (v c - rowMax v))

/-- The masked-sum form: `(M + L) − ∑_c [c = tg] v c`, the lane number compared as a 32-bit word. -/
def rowCEmask (v : Fin 128 → EReal) (tg : BitVec 32) : EReal :=
  (rowMax v + logSum v) - ∑ c : Fin 128, if BitVec.ofNat 32 c.val = tg then v c else 0

/-- The entry of the row the target word selects (meaningful for a word below 128). -/
def pick (v : Fin 128 → EReal) (tg : BitVec 32) : EReal :=
  if h : tg.toNat < 128 then v ⟨tg.toNat, h⟩ else 0

/-- The log-softmax form: `−((v k − M) − L)`. -/
def rowCEgather (v : Fin 128 → EReal) (tg : BitVec 32) : EReal :=
  -((pick v tg - rowMax v) - logSum v)

/-- A tile's contribution: the masked-form cross entropies of its 8192 rows summed, the tile given as its block of
    logits and its block of target words laid out 64 × 128 row-major (row `r`'s word at `(r / 128, r % 128)`). -/
def tileCE (x0 : (⟨2, ![8192, 128]⟩ : Shape).Idx → EReal) (x1 : (⟨2, ![64, 128]⟩ : Shape).Idx → BitVec 32) : EReal :=
  ∑ r : Fin 8192, rowCEmask (fun c => x0 (ix2 r c))
    (x1 (ix2 (⟨r.val / 128, by have := r.isLt; omega⟩ : Fin 64) (⟨r.val % 128, Nat.mod_lt _ (by norm_num)⟩ : Fin 128)))

/-- The global row number of row `r` of tile `l` of core `p`. -/
def gidx (p : Fin 2) (l : Fin 128) (r : Fin 8192) : Fin 2097152 :=
  ⟨(p.val * 128 + l.val) * 8192 + r.val, by have := p.isLt; have := l.isLt; have := r.isLt; omega⟩

/-- The total as the tiled side sums it: cores, then tiles, then a tile's rows. -/
def totalTiled (x : SX.Idx → EReal) (t : ST.Idx → BitVec 32) : EReal :=
  ∑ p : Fin 2, ∑ l : Fin 128, ∑ r : Fin 8192, rowCEmask (rowOf x (gidx p l r)) (tgtOf t (gidx p l r))

/-- The total as the flat side sums it. -/
def totalFlat (x : SX.Idx → EReal) (t : ST.Idx → BitVec 32) : EReal :=
  ∑ n : Fin 2097152, rowCEgather (rowOf x n) (tgtOf t n)

/-- The focal scaling both programs apply to the summed cross entropy: `(1 − exp (−S))² · S`,
    through the host's own operations. -/
def focalTail (s : FVec Ideal S0 .f32) : FVec Ideal S0 .f32 :=
  mulf (Host.powf (subf (constant (F := Ideal) S0 .f32 0x3F800000#32) (Host.exp (Host.negf s)))
    (constant (F := Ideal) S0 .f32 0x40000000#32)) s

end CESum

end
-- ==== Proof.Payload.lean ====
/-
  The kernel body's stored values, read at an index at the ideal instance.  The accumulator update adds the
  tile's cross-entropy sum into the lane whose number is the tile's position along the second grid axis and
  zero into every other lane; the reset value is the zero vector; the final value is the lane sum.
-/
import proofs.«425999_j37306085933679_3_alg».proof.Proof.Gen.KernelIdeal.Skeleton
import proofs.«425999_j37306085933679_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Payload

open Cert.KernelIdeal Cert.KernelIdeal.Gen Idealize.ShloMosaic Idealize.ShloMosaic.ValueIdx

/-! ## Layout operations of a keepdims reduction, read at coordinates -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, 1]` array broadcast to `[1, 1, b]` reads its one entry everywhere. -/
theorem broadcastTo_111_11b_apply {b : ℕ} (v : (⟨3, ![1, 1, 1]⟩ : Shape).Idx → α)
    (h : (⟨3, ![1, 1, 1]⟩ : Shape).Broadcasts ⟨3, ![1, 1, b]⟩) (p q : Fin 1) (c : Fin b) :
    broadcastTo ⟨3, ![1, 1, b]⟩ v h (ix3 p q c) = v (ix3 (0 : Fin 1) (0 : Fin 1) (0 : Fin 1)) := by
  refine broadcastTo_apply v h (ix3 p q c) (ix3 (0 : Fin 1) (0 : Fin 1) (0 : Fin 1)) fun ax => ?_
  match ax with
  | ⟨0, _⟩ => rfl
  | ⟨1, _⟩ => rfl
  | ⟨2, _⟩ => rfl

/-- A `[64, 128]` array cast to `[8192, 1]` reads, at `(r, u)`, the operand at `(r / 128, r % 128)`: the row-major
    position `r` split by the row length. -/
theorem shapeCast_64x128_8192x1_apply (x : S64x128.Idx → α) (h : S64x128.ShapeCasts S8192x1) (r : Fin 8192) (u : Fin 1) :
    shapeCast S8192x1 x h (ix2 r u)
      = x (ix2 (⟨r.val / 128, by have := r.isLt; omega⟩ : Fin 64) (⟨r.val % 128, Nat.mod_lt _ (by norm_num)⟩ : Fin 128)) :=
  shapeCast_apply x h _ _ (by
    have hu : u.val = 0 := by omega
    rw [Shape.rowMajor_val_two, Shape.rowMajor_val_two]
    show r.val / 128 * 128 + r.val % 128 = r.val * 1 + u.val
    omega)

end Layout

/-! ## The reductions, read at coordinates -/

/-- The word `0xFF800000` is −∞. -/
theorem ofBits_negInf_f32 : Ideal.ofBits .f32 0xFF800000#32 = (⊥ : EReal) := by
  simp [Ideal.ofBits, Ideal.ieee]

/-- The lane maximum of an `8192 × 128` block, at row `r`: the fold of `max` from −∞ over the row's 128 lanes. -/
theorem laneMax_apply (src : FVec Ideal S8192x128 .f32) (h : S8192x128.Reduces [1] S8192) (hφ : FKind.Formats .f32)
    (hacc : (0xFF800000#32 : BitVec 32) = FKind.maximumf.neutral .f32 hφ) (r : Fin 8192) :
    multiReduction (F := Ideal) .maximumf [1] S8192 src 0xFF800000#32 h hφ hacc (ix1 r)
      = CESum.rowMax (fun c => src (ix2 r c)) := by
  refine (Ideal.multiReduction_maximumf_single src 0xFF800000#32 h hφ hacc (ix1 r)).trans ?_
  unfold CESum.rowMax
  have e : (src ∘ h.lift (ix1 r)) = fun c : Fin 128 => src (ix2 r c) := by
    funext c
    refine congrArg src (funext fun ax => Fin.ext ?_)
    match ax with
    | ⟨0, _⟩ => rfl
    | ⟨1, _⟩ => rfl
  rw [e]
  exact congrArg (fun z => (Finset.univ : Finset (Fin 128)).fold max z fun c => src (ix2 r c)) ofBits_negInf_f32

/-- The lane sum of an `8192 × 128` block, at row `r`: the sum over the row's 128 lanes. -/
theorem laneSum_apply (src : FVec Ideal S8192x128 .f32) (h : S8192x128.Reduces [1] S8192) (hφ : FKind.Formats .f32)
    (hacc : (0x00000000#32 : BitVec 32) = FKind.add.neutral .f32 hφ) (r : Fin 8192) :
    multiReduction (F := Ideal) .add [1] S8192 src 0x00000000#32 h hφ hacc (ix1 r) = ∑ c : Fin 128, src (ix2 r c) := by
  refine (Ideal.multiReduction_add_single src 0x00000000#32 h hφ hacc (ix1 r)).trans ?_
  refine Finset.sum_congr rfl fun c _ => congrArg src (funext fun ax => Fin.ext ?_)
  match ax with
  | ⟨0, _⟩ => rfl
  | ⟨1, _⟩ => rfl

/-- The row sum of an `8192 × 1` column: the sum of its 8192 entries. -/
theorem rowSum_apply (src : FVec Ideal S8192x1 .f32) (h : S8192x1.Reduces [0] S1) (hφ : FKind.Formats .f32)
    (hacc : (0x00000000#32 : BitVec 32) = FKind.add.neutral .f32 hφ) (u : Fin 1) :
    multiReduction (F := Ideal) .add [0] S1 src 0x00000000#32 h hφ hacc (ix1 u) = ∑ r : Fin 8192, src (ix2 r (0 : Fin 1)) := by
  refine (Ideal.multiReduction_add_single src 0x00000000#32 h hφ hacc (ix1 u)).trans ?_
  refine Finset.sum_congr rfl fun r _ => congrArg src (funext fun ax => Fin.ext ?_)
  match ax with
  | ⟨0, _⟩ => rfl
  | ⟨1, _⟩ =>
    show (h.lift (ix1 u) r (1 : Fin 2)).val = 0
    exact Nat.lt_one_iff.mp (h.lift (ix1 u) r (1 : Fin 2)).isLt

/-- The lane sum of a `1 × 1 × 128` vector: the sum of its 128 lanes. -/
theorem laneSum3_apply (src : FVec Ideal S1x1x128 .f32) (h : S1x1x128.Reduces [2] S1x1) (hφ : FKind.Formats .f32)
    (hacc : (0x00000000#32 : BitVec 32) = FKind.add.neutral .f32 hφ) (p q : Fin 1) :
    multiReduction (F := Ideal) .add [2] S1x1 src 0x00000000#32 h hφ hacc (ix2 p q)
      = ∑ l : Fin 128, src (ix3 (0 : Fin 1) (0 : Fin 1) l) := by
  refine (Ideal.multiReduction_add_single src 0x00000000#32 h hφ hacc (ix2 p q)).trans ?_
  refine Finset.sum_congr rfl fun l _ => congrArg src (funext fun ax => Fin.ext ?_)
  match ax with
  | ⟨0, _⟩ =>
    show (h.lift (ix2 p q) l (0 : Fin 3)).val = 0
    exact Nat.lt_one_iff.mp (h.lift (ix2 p q) l (0 : Fin 3)).isLt
  | ⟨1, _⟩ =>
    show (h.lift (ix2 p q) l (1 : Fin 3)).val = 0
    exact Nat.lt_one_iff.mp (h.lift (ix2 p q) l (1 : Fin 3)).isLt
  | ⟨2, _⟩ => rfl

/-! ## Words: the lane test -/

/-- A select on a word comparison is the `if` on the words' equality. -/
theorem select_cmpi_eq {α : Type} {w : ℕ} (x y : BitVec w) (A B : α) :
    Scalar.select (IntOp.cmpi .eq x y) A B = if x = y then A else B := by
  show (if BitVec.ofBool (x == y) = 1#1 then A else B) = if x = y then A else B
  by_cases h : x = y
  · rw [if_pos h, beq_iff_eq.mpr h, if_pos (by decide : BitVec.ofBool true = 1#1)]
  · rw [if_neg h, beq_eq_false_iff_ne.mpr h, if_neg (by decide : ¬BitVec.ofBool false = 1#1)]

/-- Two numbers below 128 with the same 32-bit word are equal. -/
theorem ofNat32_inj {l k : ℕ} (hl : l < 128) (hk : k < 128) : BitVec.ofNat 32 l = BitVec.ofNat 32 k ↔ l = k := by
  constructor
  · intro h
    have h' := congrArg BitVec.toNat h
    simp only [BitVec.toNat_ofNat] at h'
    omega
  · rintro rfl; rfl

/-- A number below 128 is its own signed remainder by 128. -/
theorem remsi_lane : ∀ k : Fin 128, Scalar.remsi (BitVec.ofNat 32 k.val) 128#32 = BitVec.ofNat 32 k.val := by
  decide +kernel

/-- The lane test: lane `l` against the tile number `k` reduced modulo 128, both below 128. -/
theorem lane_select {α : Type} (l k : ℕ) (hl : l < 128) (hk : k < 128) (A B : α) :
    Scalar.select (IntOp.cmpi .eq (BitVec.ofNat 32 l) (Scalar.remsi (BitVec.ofNat 32 k) 128#32)) A B
      = if l = k then A else B := by
  rw [remsi_lane ⟨k, hk⟩, select_cmpi_eq]
  exact if_congr (ofNat32_inj hl hk) rfl rfl

theorem select_congr {α : Type} {c c' : BitVec 1} {a a' b b' : α} (hc : c = c') (ha : a = a') (hb : b = b') :
    Scalar.select c a b = Scalar.select c' a' b' := by
  subst hc ha hb; rfl

/-! ## A row of the tile -/

/-- The keepdims lane maximum, at row `r`: the row's maximum. -/
theorem rowMaxCol_apply (x0 : FVec Ideal S8192x128 .f32) (hr : S8192x128.Reduces [1] S8192) (hφ : FKind.Formats .f32)
    (hacc : (0xFF800000#32 : BitVec 32) = FKind.maximumf.neutral .f32 hφ) (hc : S8192.ShapeCasts S8192x1)
    (r : Fin 8192) (u : Fin 1) :
    shapeCast S8192x1 (multiReduction (F := Ideal) .maximumf [1] S8192 x0 0xFF800000#32 hr hφ hacc) hc (ix2 r u)
      = CESum.rowMax (fun c => x0 (ix2 r c)) :=
  (shapeCast_a_a1_apply _ hc r u).trans (laneMax_apply x0 hr hφ hacc r)

/-- The logarithm of the keepdims lane sum of the shifted exponentials, at row `r`, given that the column `m` holds
    the rows' maxima. -/
theorem logSumCol_apply (x0 : FVec Ideal S8192x128 .f32) (m : FVec Ideal S8192x1 .f32)
    (hm : ∀ r u, m (ix2 r u) = CESum.rowMax (fun c => x0 (ix2 r c)))
    (hb : S8192x1.Broadcasts S8192x128) (hr : S8192x128.Reduces [1] S8192) (hφ : FKind.Formats .f32)
    (hacc : (0x00000000#32 : BitVec 32) = FKind.add.neutral .f32 hφ) (hc : S8192.ShapeCasts S8192x1)
    (r : Fin 8192) (u : Fin 1) :
    log (shapeCast S8192x1 (multiReduction (F := Ideal) .add [1] S8192 (exp (subf x0 (broadcastTo S8192x128 m hb)))
        0x00000000#32 hr hφ hacc) hc) (ix2 r u)
      = CESum.logSum (fun c => x0 (ix2 r c)) := by
  show Ideal.log _ = Ideal.log _
  refine congrArg Ideal.log ?_
  refine (shapeCast_a_a1_apply _ hc r u).trans ?_
  refine (laneSum_apply _ hr hφ hacc r).trans ?_
  refine Finset.sum_congr rfl fun c _ => ?_
  show Ideal.exp (x0 (ix2 r c) - broadcastTo S8192x128 m hb (ix2 r c)) = _
  rw [broadcastTo_a1_ab_apply, hm]

/-- The keepdims masked lane sum, at row `r`: the lanes whose number is the row's target word keep their entry. -/
theorem maskSumCol_apply (x0 : FVec Ideal S8192x128 .f32) (t : IVec S8192x1 32)
    (hb : S8192x1.Broadcasts S8192x128) (hi : S8192x128.Iotas .tc 32 [1]) (hr : S8192x128.Reduces [1] S8192)
    (hφ : FKind.Formats .f32) (hacc : (0x00000000#32 : BitVec 32) = FKind.add.neutral .f32 hφ)
    (hc : S8192.ShapeCasts S8192x1) (r : Fin 8192) (u : Fin 1) :
    shapeCast S8192x1 (multiReduction (F := Ideal) .add [1] S8192
        (select (cmpi .eq (iota .tc S8192x128 32 [1] hi) (broadcastTo S8192x128 t hb)) x0
          (broadcast S8192x128 (Scalar.ofBits (F := Ideal) .f32 0x00000000#32)))
        0x00000000#32 hr hφ hacc) hc (ix2 r u)
      = ∑ c : Fin 128, if BitVec.ofNat 32 c.val = t (ix2 r (0 : Fin 1)) then x0 (ix2 r c) else 0 := by
  refine (shapeCast_a_a1_apply _ hc r u).trans ?_
  refine (laneSum_apply _ hr hφ hacc r).trans ?_
  refine Finset.sum_congr rfl fun c _ => ?_
  refine (select_apply _ _ _ _).trans ?_
  refine (select_congr (c' := IntOp.cmpi .eq (BitVec.ofNat 32 c.val) (t (ix2 r (0 : Fin 1))))
    (a' := x0 (ix2 r c)) (b' := (0 : EReal)) ?_ rfl Ideal.ofBits_zero_f32).trans (select_cmpi_eq _ _ _ _)
  show IntOp.cmpi .eq (iota .tc S8192x128 32 [1] hi (ix2 r c)) (broadcastTo S8192x128 t hb (ix2 r c)) = _
  rw [iota_single_apply, broadcastTo_a1_ab_apply]

/-- The targets' block reshaped to a column, at row `r`: the word at `(r / 128, r % 128)`. -/
theorem tgtCol_apply (x1 : IVec S64x128 32) (h1 : S64x128.ShapeCasts S64x128) (h2 : S64x128.ShapeCasts S8192x1)
    (r : Fin 8192) (u : Fin 1) :
    shapeCast S8192x1 (shapeCast S64x128 x1 h1) h2 (ix2 r u)
      = x1 (ix2 (⟨r.val / 128, by have := r.isLt; omega⟩ : Fin 64) (⟨r.val % 128, Nat.mod_lt _ (by norm_num)⟩ : Fin 128)) := by
  rw [shapeCast_self]
  exact shapeCast_64x128_8192x1_apply x1 h2 r u

/-! ## The four stored values -/

/-- The update: lane `l` of the new accumulator is lane `l` of the old plus, in the lane numbered by the
    second grid coordinate, the tile's summed cross entropy. -/
theorem pay4_apply (i : grid0.Coords) (x0 : Vec Ideal S8192x128 .f32) (x1 : Vec Ideal S64x128 .i32)
    (s : Vec Ideal S1x1x128 .f32) (l : Fin 128) :
    k0_pay4 (F := Ideal) i x0 x1 s (ix3 (0 : Fin 1) (0 : Fin 1) l)
      = s (ix3 (0 : Fin 1) (0 : Fin 1) l) + if l.val = (i 1).val then CESum.tileCE x0 x1 else 0 := by
  have hk : (i 1).val < 128 := (i 1).isLt
  unfold k0_pay4
  refine (addf_apply _ _ _).trans ?_
  refine congrArg (fun z => s (ix3 (0 : Fin 1) (0 : Fin 1) l) + z) ?_
  refine (select_apply _ _ _ _).trans ?_
  refine (select_congr
    (c' := IntOp.cmpi .eq (BitVec.ofNat 32 l.val) (Scalar.remsi (BitVec.ofNat 32 (i 1).val) 128#32))
    (a' := CESum.tileCE x0 x1) (b' := (0 : EReal)) ?_ ?_ Ideal.ofBits_zero_f32).trans
    (lane_select l.val (i 1).val l.isLt hk _ _)
  · -- the lane number against the tile number
    exact congrArg (fun z => IntOp.cmpi .eq z (Scalar.remsi (BitVec.ofNat 32 (i 1).val) 128#32))
      (iota_single_apply .tc S1x1x128 32 2 _ (ix3 (0 : Fin 1) (0 : Fin 1) l))
  · -- the tile's sum, through the unit axes
    refine (broadcastTo_111_11b_apply _ _ 0 0 l).trans ?_
    refine (shapeCast_ab_1ab_apply _ _ 0 0 0).trans ?_
    refine (shapeCast_a_1a_apply _ _ 0 0).trans ?_
    refine (rowSum_apply _ _ _ _ 0).trans ?_
    unfold CESum.tileCE
    refine Finset.sum_congr rfl fun r _ => ?_
    refine (subf_apply _ _ _).trans ?_
    unfold CESum.rowCEmask
    refine congr (congrArg HSub.hSub ?_) ?_
    · refine (addf_apply _ _ _).trans ?_
      refine congr (congrArg HAdd.hAdd ?_) ?_
      · exact rowMaxCol_apply x0 _ _ _ _ r 0
      · exact logSumCol_apply x0 _ (fun r u => rowMaxCol_apply x0 _ _ _ _ r u) _ _ _ _ _ r 0
    · refine (maskSumCol_apply x0 _ _ _ _ _ _ _ r 0).trans ?_
      rw [tgtCol_apply]

/-- The reset stores zeros. -/
theorem pay3_apply (j : S1x1x128.Idx) : k0_pay3 (F := Ideal) j = 0 := by
  unfold k0_pay3
  rw [shapeCast_self]
  exact Ideal.ofBits_zero_f32

/-- The accumulator's store writes the updated vector as it is. -/
theorem pay1_eq (v : FVec Ideal S1x1x128 .f32) : k0_pay1 (F := Ideal) v = v := by
  unfold k0_pay1
  exact shapeCast_self v _

/-- The output is the sum of the accumulator's lanes. -/
theorem pay2_apply (v : Vec Ideal S1x1x128 .f32) (j : S1x1x1.Idx) :
    k0_pay2 (F := Ideal) v j = ∑ l : Fin 128, v (ix3 (0 : Fin 1) (0 : Fin 1) l) := by
  obtain ⟨a, b, c, rfl⟩ : ∃ (a b c : Fin 1), j = ix3 a b c := ⟨j 0, j 1, j 2, eq_ix3 j⟩
  unfold k0_pay2
  refine (shapeCast_ab_1ab_apply _ _ a b c).trans ?_
  exact laneSum3_apply v _ _ _ b c

end Cert.KernelIdeal.Payload

end
-- ==== Proof.KInv.lean ====
/-
  The accumulator across the grid.  Grid position `t` (0 … 255) is tile `t mod 128` of core `t / 128`.  The body adds
  the tile's summed cross entropy into lane `t mod 128` of a 128-lane accumulator that the first tile of a core
  resets, so after position `t` lane `l` holds the sum of tile `l` of the current core when `l ≤ t mod 128` and
  zero otherwise (induction on the position; adding zero to an extended real changes nothing).  At the last tile of a
  core the output block receives the lane sum: the sum of the core's 128 tile sums.
-/
import proofs.«425999_j37306085933679_3_alg».proof.Proof.KPieces
import proofs.«425999_j37306085933679_3_alg».proof.Proof.Payload
import proofs.«425999_j37306085933679_3_alg».proof.Proof.Spec
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen

variable (m : (ℓ : Loc nD τ sig) → Buf (Elt Ideal) ℓ)

/-- The logits block and the targets block the pipeline hands the body at grid position `t`. -/
abbrev xblk (c : Dev nD) (t : Fin cfg0.N) : Vec Ideal S8192x128 .f32 := iblk m c 0 t
abbrev tblk (c : Dev nD) (t : Fin cfg0.N) : Vec Ideal S64x128 .i32 := iblk m c 1 t

/-- The summed cross entropy of the tile at grid position `k` (zero past the grid, so that it is total). -/
def tileAt (c : Dev nD) (k : ℕ) : EReal :=
  if h : k < cfg0.N then CESum.tileCE (xblk m c ⟨k, h⟩) (tblk m c ⟨k, h⟩) else 0

/-- The second grid coordinate of position `t` is `t mod 128`. -/
theorem coord1 : ∀ t : Fin cfg0.N, ((grid0.coords t) 1).val = t.val % 128 :=
  (by decide +kernel : ∀ t : Fin grid0.N, ((grid0.coords t) 1).val = t.val % 128)

/-- At the first tile of a core the accumulator's lane `l` ends at the tile's sum if `l` is the tile's lane, else zero. -/
theorem lane_A (c : Dev nD) (t : Fin cfg0.N) (h0 : t.val % 128 = 0) (l : Fin 128) :
    (outsAt0 m c t.val t.isLt).2 (ix3 (0 : Fin 1) (0 : Fin 1) l) = if l.val = t.val % 128 then tileAt m c t.val else 0 := by
  have h1 : ¬ t.val % 128 = 127 := by omega
  rw [outsAt0_A m c t h0 h1]
  dsimp only
  rw [sout_A]
  rw [Payload.pay1_eq, Payload.pay4_apply, Payload.pay3_apply, zero_add, coord1 t]
  unfold tileAt
  rw [dif_pos t.isLt]

/-- At any other tile the accumulator's lane `l` is what the tile before left there plus the tile's sum in the tile's lane. -/
theorem lane_BC (c : Dev nD) (t : Fin cfg0.N) (h0 : ¬ t.val % 128 = 0) (l : Fin 128) :
    (outsAt0 m c t.val t.isLt).2 (ix3 (0 : Fin 1) (0 : Fin 1) l)
      = (outsAt0 m c (t.val - 1) (Nat.lt_of_le_of_lt (Nat.sub_le _ _) t.isLt)).2 (ix3 (0 : Fin 1) (0 : Fin 1) l)
        + if l.val = t.val % 128 then tileAt m c t.val else 0 := by
  by_cases h1 : t.val % 128 = 127
  · rw [outsAt0_C m c t h0 h1]
    dsimp only
    rw [sout_C]
    rw [Payload.pay1_eq, Payload.pay4_apply, coord1 t]
    unfold tileAt
    rw [dif_pos t.isLt]
  · rw [outsAt0_B m c t h0 h1]
    dsimp only
    rw [sout_B]
    rw [Payload.pay1_eq, Payload.pay4_apply, coord1 t]
    unfold tileAt
    rw [dif_pos t.isLt]

/-- THE ACCUMULATOR AFTER POSITION `n`: lane `l` holds the sum of tile `l` of the current core if that tile has
    been visited (`l ≤ n mod 128`), else zero — by induction on the position. -/
theorem acc_eq (c : Dev nD) : ∀ (n : ℕ) (hn : n < cfg0.N) (l : Fin 128),
    (outsAt0 m c n hn).2 (ix3 (0 : Fin 1) (0 : Fin 1) l)
      = if l.val ≤ n % 128 then tileAt m c (n / 128 * 128 + l.val) else 0
  | 0, hn, l => by
    rw [lane_A m c ⟨0, hn⟩ rfl l]
    dsimp only
    have hl := l.isLt
    by_cases h : l.val = 0
    · rw [if_pos (by omega), if_pos (by omega)]; congr 1; omega
    · rw [if_neg (by omega), if_neg (by omega)]
  | n + 1, hn, l => by
    have hl := l.isLt
    by_cases h0 : (n + 1) % 128 = 0
    · rw [lane_A m c ⟨n + 1, hn⟩ h0 l]
      dsimp only
      by_cases h : l.val = (n + 1) % 128
      · rw [if_pos h, if_pos (by omega)]; congr 1; omega
      · rw [if_neg h, if_neg (by omega)]
    · rw [lane_BC m c ⟨n + 1, hn⟩ h0 l]
      dsimp only
      show (outsAt0 m c n (Nat.lt_of_succ_lt hn)).2 (ix3 (0 : Fin 1) (0 : Fin 1) l) + _ = _
      rw [acc_eq c n (Nat.lt_of_succ_lt hn) l]
      have hd : (n + 1) / 128 = n / 128 := by omega
      have hm : (n + 1) % 128 = n % 128 + 1 := by omega
      by_cases h : l.val = (n + 1) % 128
      · rw [if_pos h, if_neg (by omega), if_pos (by omega), zero_add]; congr 1; omega
      · rw [if_neg h, add_zero]
        by_cases h' : l.val ≤ n % 128
        · rw [if_pos h', if_pos (by omega), hd]
        · rw [if_neg h', if_neg (by omega)]

/-- At the last tile of a core the output block holds the sum of the core's 128 tile sums. -/
theorem out_last (c : Dev nD) (t : Fin cfg0.N) (h1 : t.val % 128 = 127) (j : S1x1x1.Idx) :
    (outsAt0 m c t.val t.isLt).1 j = ∑ l : Fin 128, tileAt m c (t.val / 128 * 128 + l.val) := by
  have h0 : ¬ t.val % 128 = 0 := by omega
  have e2 := fun l => acc_eq m c t.val t.isLt l
  rw [outsAt0_C m c t h0 h1] at e2 ⊢
  dsimp only at e2 ⊢
  rw [out_C, Payload.pay2_apply]
  rw [sout_C] at e2
  refine Finset.sum_congr rfl fun l _ => ?_
  rw [e2 l, if_pos (by have := l.isLt; omega)]

end Cert.KernelIdeal.KValue

end
-- ==== Proof.KBlocks.lean ====
/-
  The blocks the pipeline hands the body, read off the arguments.  At grid position `t` the logits block is rows
  `8192·t … 8192·t + 8191` of the logits, and the targets block is rows `64·t … 64·t + 63` of the targets viewed as
  16384 × 128 row-major — so its entry `(r / 128, r mod 128)` is target number `8192·t + r`.  Hence a tile's sum is
  the sum of the masked-form cross entropies of those 8192 global rows.
-/
import proofs.«425999_j37306085933679_3_alg».proof.Proof.KInv
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen

variable (m : (ℓ : Loc nD τ sig) → Buf (Elt Ideal) ℓ)

/-- The printed index maps over the grid: the input blocks are numbered by the position, the output block by the core. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 128 ∧ win0_2.index t (1 : Fin 3) = 0 ∧ win0_2.index t (2 : Fin 3) = 0 :=
  (by decide +kernel : ∀ t : Fin grid0.N, _)

/-- The arguments as plain arrays. -/
abbrev xarg (c : Dev nD) : Vec Ideal S2097152x128 .f32 := m ((c : Thread nD τ).loc main_arg0)
abbrev targ (c : Dev nD) : Vec Ideal S2097152 .i32 := m ((c : Thread nD τ).loc main_arg1)

/-- Global row number `8192·t + r`. -/
def grow (t : Fin cfg0.N) (r : Fin 8192) : Fin 2097152 :=
  ⟨t.val * 8192 + r.val, by have := t.isLt; have : cfg0.N = 256 := N_0; have := r.isLt; omega⟩

/-- The logits block at position `t`, entry `(r, k)`: the logits at `(8192·t + r, k)`. -/
theorem xblk_apply (c : Dev nD) (t : Fin cfg0.N) (r : Fin 8192) (k : Fin 128) :
    xblk m c t (ix2 r k) = xarg m c (ix2 (grow t r) k) := by
  obtain ⟨e0, e1, -⟩ := idx_facts t
  unfold xblk iblk
  rw [View.read_apply]
  show V m c main_arg0 (((cfg0.win 0).blk t).view.emb (ix2 r k)) = _
  rw [V_main_arg0]
  show xarg m c _ = _
  congr 1
  funext a
  apply Fin.ext
  match a with
  | ⟨0, _⟩ => show win0_0.index t (0 : Fin 2) * 8192 + 1 * r.val = t.val * 8192 + r.val; rw [e0]; omega
  | ⟨1, _⟩ => show win0_0.index t (1 : Fin 2) * 128 + 1 * k.val = k.val; rw [e1]; omega

/-- The targets viewed 16384 × 128 (the host's reshape before the region). -/
theorem V_main_v0 (c : Dev nD) :
    (V m c main_v0 : S16384x128.Idx → BitVec 32) = shapeCast S16384x128 (targ m c) shapeCasts_S2097152_S16384x128 := by
  show StableHlo.after hostOps0 (fun b => m (c, b)) (Proc.devRef .tc main_v0) = _
  after_results
  rfl

/-- The targets block at position `t`, entry `(a, b)`: target number `8192·t + 128·a + b`. -/
theorem tblk_apply (c : Dev nD) (t : Fin cfg0.N) (r : Fin 8192) :
    tblk m c t (ix2 (⟨r.val / 128, by have := r.isLt; omega⟩ : Fin 64) (⟨r.val % 128, Nat.mod_lt _ (by norm_num)⟩ : Fin 128))
      = targ m c (ix1 (grow t r)) := by
  obtain ⟨-, -, e2, e3, -⟩ := idx_facts t
  unfold tblk iblk
  rw [View.read_apply]
  show V m c main_v0 (((cfg0.win 1).blk t).view.emb _) = _
  rw [V_main_v0]
  refine shapeCast_apply _ _ _ _ ?_
  rw [Shape.rowMajor_val_one, Shape.rowMajor_val_two]
  show (grow t r).val = (win0_1.index t (0 : Fin 2) * 64 + 1 * (r.val / 128)) * 128 + (win0_1.index t (1 : Fin 2) * 128 + 1 * (r.val % 128))
  rw [e2, e3]
  show t.val * 8192 + r.val = _
  omega

/-- A tile's sum, over the arguments: the masked-form cross entropies of global rows `8192·k … 8192·k + 8191`. -/
theorem tileAt_eq (c : Dev nD) (t : Fin cfg0.N) :
    tileAt m c t.val = ∑ r : Fin 8192, CESum.rowCEmask (CESum.rowOf (xarg m c) (grow t r)) (CESum.tgtOf (targ m c) (grow t r)) := by
  unfold tileAt
  rw [dif_pos t.isLt]
  unfold CESum.tileCE
  refine Finset.sum_congr rfl fun r _ => ?_
  rw [tblk_apply m c t r]
  congr 1
  funext k
  exact xblk_apply m c t r k

end Cert.KernelIdeal.KValue

end
-- ==== Proof.KFinal.lean ====
/-
  The output array after the run.  The pipeline writes the output block back only at the last tile of each core
  (positions 127 and 255), into entry `p` of the 2 × 1 × 1 output for core `p`; what it writes is the sum of the
  core's 128 tile sums.  The two write-backs cover the array, so the array ends holding, at core `p`, the sum over
  the core's tiles.
-/
import proofs.«425999_j37306085933679_3_alg».proof.Proof.KBlocks

noncomputable section

open scoped BigOperators
open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen

variable (m : (ℓ : Loc nD τ sig) → Buf (Elt Ideal) ℓ)

/-- What the output array ends holding: at core `p` the sum of the core's 128 tile sums. -/
def outArr (c : Dev nD) : Vec Ideal S2x1x1 .f32 := fun j => ∑ l : Fin 128, tileAt m c ((j 0).val * 128 + l.val)

/-- An index of the output array is in position `t`'s block iff each coordinate is in the block's range. -/
theorem mem_blk_out (t : Fin cfg0.N) (i : S2x1x1.Idx) :
    i ∈ ((cfg0.win 2).blk t).view.set ↔ ∀ a : Fin 3, win0_2.index t a * S1x1x1.size a ≤ (i a).val ∧ (i a).val < win0_2.index t a * S1x1x1.size a + S1x1x1.size a := by
  show i ∈ ((View.whole main_v1).slice (win0_2.rect t)).set ↔ _
  rw [View.set_slice_whole, Rect.mem_set_unit]
  exact Iff.rfl

/-- What a write-back writes is the block of `outArr` at the core's entry. -/
theorem flushed_out (c : Dev nD) (t : Fin cfg0.N) (hf : (cfg0.win 2).flush t = true) :
    (dats m 0 c).flushed 2 t = ((cfg0.win 2).blk t).view.read (Elt Ideal) (outArr m c) := by
  have h1 : t.val % 128 = 127 := (flush0_2 t).mp hf
  obtain ⟨-, -, -, -, e4, e5, e6⟩ := idx_facts t
  show (cfg0.win 2).cut (grid0.coords t) ((dats m 0 c).after 2 t) = _
  rw [after0_2]
  funext j
  rw [View.read_apply]
  show (outsAt0 m c t.val t.isLt).1 j = outArr m c (((cfg0.win 2).blk t).view.emb j)
  rw [out_last m c t h1 j]
  unfold outArr
  have hj : ((((cfg0.win 2).blk t).view.emb j) 0).val = t.val / 128 := by
    show win0_2.index t (0 : Fin 3) * 1 + 1 * (j 0).val = _
    have : (j 0).val < 1 := (j 0).isLt
    rw [e4]; omega
  rw [hj]

/-- So the output array ends holding `outArr`: the write-backs at positions 127 and 255 cover its two entries. -/
theorem final_out (c : Dev nD) : (dats m 0 c).arrAt 2 cfg0.N = outArr m c :=
  (dats m 0 c).arrAt_eq_of_cover 2 (outArr m c) (flushed_out m c) fun i => by
    have hN : cfg0.N = 256 := N_0
    have hi0 : (i 0).val < 2 := (i 0).isLt
    have hi1 : (i 1).val < 1 := (i 1).isLt
    have hi2 : (i 2).val < 1 := (i 2).isLt
    let t : Fin cfg0.N := ⟨(i 0).val * 128 + 127, by omega⟩
    have ht : t.val = (i 0).val * 128 + 127 := rfl
    obtain ⟨-, -, -, -, e4, e5, e6⟩ := idx_facts t
    refine ⟨t, (flush0_2 t).mpr (by rw [ht]; omega), ?_⟩
    rw [mem_blk_out]
    intro a
    match a with
    | ⟨0, _⟩ => show win0_2.index t (0 : Fin 3) * 1 ≤ (i 0).val ∧ (i 0).val < win0_2.index t (0 : Fin 3) * 1 + 1; rw [e4, ht]; omega
    | ⟨1, _⟩ => show win0_2.index t (1 : Fin 3) * 1 ≤ (i 1).val ∧ (i 1).val < win0_2.index t (1 : Fin 3) * 1 + 1; rw [e5]; omega
    | ⟨2, _⟩ => show win0_2.index t (2 : Fin 3) * 1 ≤ (i 2).val ∧ (i 2).val < win0_2.index t (2 : Fin 3) * 1 + 1; rw [e6]; omega

end Cert.KernelIdeal.KValue

end
-- ==== Proof.KTail.lean ====
/-
  The host operations after the region, and the kernel's run read as a value.  After the region the program sums
  the two per-core entries of the output from zero, then applies the focal scaling `(1 − exp (−S))² · S`.  The sum of
  the per-core sums of tile sums, each tile sum a sum over its rows, is the tiled total of the specification.
-/
import proofs.«425999_j37306085933679_3_alg».proof.Proof.KFinal
import Idealize.ShloMosaic.Lib.StableHlo.Run
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen

variable (m : (ℓ : Loc nD τ sig) → Buf (Elt Ideal) ℓ) (ρ : Dev nD → PrngReg)

/-- The 2 × 1 × 1 output's indices are numbered by the core: every index is `(p, 0, 0)`. -/
def idxEquiv211 : S2x1x1.Idx ≃ Fin 2 where
  toFun j := j 0
  invFun p := ix3 p (0 : Fin 1) (0 : Fin 1)
  left_inv j := by
    funext a
    match a with
    | ⟨0, _⟩ => rfl
    | ⟨1, _⟩ => exact Fin.ext (Nat.lt_one_iff.mp (j ⟨1, by decide⟩).isLt).symm
    | ⟨2, _⟩ => exact Fin.ext (Nat.lt_one_iff.mp (j ⟨2, by decide⟩).isLt).symm
  right_inv _ := rfl

/-- The sum over the output's entries of the per-core sums is the tiled total. -/
theorem sum_outArr (c : Dev nD) :
    (∑ j : S2x1x1.Idx, outArr m c j) = CESum.totalTiled (xarg m c) (targ m c) := by
  refine (Equiv.sum_comp idxEquiv211.symm (outArr m c)).symm.trans ?_
  unfold CESum.totalTiled
  refine Finset.sum_congr rfl fun p _ => ?_
  show ∑ l : Fin 128, tileAt m c (p.val * 128 + l.val) = _
  refine Finset.sum_congr rfl fun l _ => ?_
  have ht : p.val * 128 + l.val < cfg0.N := by
    have hN : cfg0.N = 256 := N_0
    have := p.isLt
    have := l.isLt
    omega
  refine (tileAt_eq m c ⟨p.val * 128 + l.val, ht⟩).trans ?_
  refine Finset.sum_congr rfl fun r _ => ?_
  have hg : grow ⟨p.val * 128 + l.val, ht⟩ r = CESum.gidx p l r := Fin.ext rfl
  rw [hg]

/-- The host's sum of the 2 × 1 × 1 output from the zero word: the sum of its entries. -/
theorem hostSum_eq (x : FVec Ideal S2x1x1 .f32) (h : S2x1x1.ReducesTo [0, 1, 2] S_) (hu : 0 < S_.numel) :
    Host.reduceAdd (F := Ideal) x (constant (F := Ideal) S_ .f32 0x00000000#32) h hu
      = fun _ => ∑ j : S2x1x1.Idx, x j := by
  funext i
  show Ideal.hostReduceAdd h x (Ideal.ofBits .f32 0x00000000#32) i = _
  rw [Ideal.hostReduceAdd_total h (fun b => b.elim0), Ideal.ofBits_zero_f32, zero_add]

/-- The program's result buffer after the host tail: the focal scaling of the tiled total. -/
theorem tail_value (c : Dev nD) :
    Pipeline.afterTail₀ cfgs (dats m) 0 (V0 m) [hostOps1] c main_v7
      = CESum.focalTail (fun _ => CESum.totalTiled (xarg m c) (targ m c)) := by
  unfold Pipeline.afterTail₀
  show StableHlo.after hostOps1 _ (Proc.devRef .tc main_v7) = _
  after_results
  -- the region leaves the output array at the per-core sums
  have harr : Pipeline.withArrays (cfgs 0).spec c (V0 m c) (fun w => (dats m 0 c).arrAt w (cfgs 0).N)
      (Proc.devRef .tc main_v1) = outArr m c :=
    (Pipeline.withArrays_arr spec0 launch0.win.arr_inj c _ _ 2).trans (final_out m c)
  rw [harr, hostSum_eq, sum_outArr]
  rfl

/-- The kernel program's run, read: the result at the focal scaling of the tiled total, the arguments unchanged. -/
theorem run_value : θ_run defs (onTc (τ := τ) (main (F := Ideal))) ⟨m, fun _ => 0, ρ⟩ fun r => ∀ c : Dev nD,
      r.2.mem ((c.tc : Thread nD τ).loc main_v7) = CESum.focalTail (fun _ => CESum.totalTiled (xarg m c) (targ m c))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  exact (θ_run defs _ _).mono (fun _ h c =>
      ⟨((h c).2 main_v7 (Pipeline.mem_restRefs_of main_v7 (by decide) (by decide))).trans (tail_value m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c)⟩)
      (run_main m ρ)

end Cert.KernelIdeal.KValue

end
-- ==== Proof.RefValue.lean ====
/-
  The reference's result as the focal scaling of the flat cross-entropy sum.  Row by row the reference forms
  the log-softmax `(x − M) − L` with `M` the row maximum and `L` the logarithm of the shifted exponentials' sum,
  gathers its entry at the target (a target below 128 is in range, so the wrap of negative indices and the
  out-of-range fill do not bind), negates and sums over all rows from zero, and applies the focal scaling.
-/
import proofs.«425999_j37306085933679_3_alg».proof.Proof.RefRead
import proofs.«425999_j37306085933679_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.ReferenceIdeal.RefValue

open Cert.ReferenceIdeal Idealize.ShloMosaic Idealize.ShloMosaic.ValueIdx

/-- The last five operations of the reference are the focal scaling applied to the summed stage. -/
theorem tail_eq (x : FVec Ideal S2097152x128 .f32) (t : IVec S2097152 32) :
    ReadP.val_main_v10 (F := Ideal) x t = CESum.focalTail (ReadP.val_main_v5 (F := Ideal) x t) := rfl

/-- The pattern 0xFF800000 denotes −∞. -/
theorem ofBits_neg_inf : Ideal.ofBits .f32 0xFF800000#32 = ⊥ := by simp [Ideal.ofBits, Ideal.ieee]

/-- The row maximum stage at row n: the fold of max from −∞ over the row's 128 lanes. -/
theorem rowmax_row (x : FVec Ideal S2097152x128 .f32) (n : Fin 2097152) :
    ReadP.val_main_call0_v0 (F := Ideal) x (ix1 n) = CESum.rowMax (CESum.rowOf x n) := by
  unfold ReadP.val_main_call0_v0
  rw [Host.reduce_eq_fold_single FloatOps.maximumf x _ Facts₀.reducesTo_S2097152x128_S2097152_d1 (by decide) Facts₀.h_S_ (ix1 n)]
  unfold CESum.rowMax
  congr 1
  · funext k
    exact congrArg x (funext fun a => Fin.ext (by match a with | ⟨0, _⟩ => rfl | ⟨1, _⟩ => rfl))

/-- The shifted row: stage %5 of the log-softmax at (n, c) is the logit less the row maximum (the maximum with the
    −∞ broadcast changes nothing). -/
theorem shifted_row (x : FVec Ideal S2097152x128 .f32) (n : Fin 2097152) (c : Fin 128) :
    ReadP.val_main_call0_v5 (F := Ideal) x (ix2 n c) = x (ix2 n c) - CESum.rowMax (CESum.rowOf x n) := by
  rw [ReadP.val_main_call0_v5_apply, ReadP.val_main_call0_v4_apply, ReadP.val_main_call0_v3_apply,
    ReadP.val_main_call0_v2_apply, ReadP.val_main_call0_v1_apply, ReadP.val_main_call0_cst_0_apply]
  have hi : ReadP.idx_main_call0_v3 (ReadP.idx_main_call0_v4 (ix2 n c)) = ix1 n :=
    funext fun a => by match a with | ⟨0, _⟩ => rfl
  rw [hi, rowmax_row]
  show x (ix2 n c) - max (Ideal.ofBits .f32 0xFF800000#32) (CESum.rowMax (CESum.rowOf x n)) = _
  rw [ofBits_neg_inf, max_eq_right bot_le]

/-- The logarithm stage: at (n, c), whatever the lane c, the logarithm of the row's sum of shifted exponentials (the
    sum starts from the pattern 0, which denotes 0). -/
theorem logsum_row (x : FVec Ideal S2097152x128 .f32) (n : Fin 2097152) (c : Fin 128) :
    ReadP.val_main_call0_v10 (F := Ideal) x (ix2 n c) = CESum.logSum (CESum.rowOf x n) := by
  rw [ReadP.val_main_call0_v10_apply, ReadP.val_main_call0_v9_apply, ReadP.val_main_call0_v8_apply,
    ReadP.val_main_call0_v7_apply, ReadP.val_main_call0_cst_1_apply]
  have hi : ∀ k : Fin 128, ReadP.idx_main_call0_v7 (ReadP.idx_main_call0_v8 (ReadP.idx_main_call0_v10 (ix2 n c))) k = ix2 n k :=
    fun k => funext fun a => by match a with | ⟨0, _⟩ => rfl | ⟨1, _⟩ => rfl
  simp only [hi, ReadP.val_main_call0_v6_apply, shifted_row]
  show Ideal.log (Ideal.ofBits .f32 0x00000000#32
      + ∑ k : Fin 128, Ideal.exp (x (ix2 n k) - CESum.rowMax (CESum.rowOf x n))) = _
  rw [Ideal.ofBits_zero_f32, zero_add]
  rfl

/-- The log-softmax at (n, c): (x − M) − L. -/
theorem logsoftmax_entry (x : FVec Ideal S2097152x128 .f32) (n : Fin 2097152) (c : Fin 128) :
    ReadP.val_main_v0 (F := Ideal) x (ix2 n c)
      = (x (ix2 n c) - CESum.rowMax (CESum.rowOf x n)) - CESum.logSum (CESum.rowOf x n) := by
  rw [ReadP.val_main_v0_apply, shifted_row, logsum_row]
  rfl

local notation "gd" => gather_S2097152x128_S2097152x1x1_S2097152x1_n_1_0_0_1_2_11

/-- The batched gather read at row n: the operand's row n at the lane the start index names, read signed and clamped
    into [0, 127]. Axis 0 of the operand is a batching axis (it takes the result's row and no start), axis 1 is
    collapsed and start-indexed (it takes the clamped start and no offset). -/
theorem gather_row {α : Type} (x : S2097152x128.Idx → α) (idx : IVec S2097152x1x1 32) (n : Fin 2097152) :
    Host.gather gd x idx (ix2 n (0 : Fin 1))
      = x (ix2 n ⟨min (idx (ix3 n (0 : Fin 1) (0 : Fin 1))).toInt.toNat 127, by omega⟩) := by
  unfold Host.gather
  congr 1
  funext a
  refine Fin.ext ?_
  match a with
  | ⟨0, _⟩ =>
    show (gd).start (ix2 n 0) idx 0 + (gd).batchCoord (ix2 n 0) 0 + (gd).offCoord (ix2 n 0) 0 = n.val
    have hb : (0 : Fin 2) ∈ (gd).operandBatchingDims := List.mem_singleton.mpr rfl
    rw [GatherDims.start_batching _ _ _ _ hb,
      GatherDims.offCoord_eq_zero _ _ _ (fun h => ((GatherDims.mem_sKept _ _).mp h).2 hb)]
    simp only [Nat.add_zero, Nat.zero_add]
    unfold GatherDims.batchCoord
    rw [dif_pos hb]
    rfl
  | ⟨1, _⟩ =>
    show (gd).start (ix2 n 0) idx 1 + (gd).batchCoord (ix2 n 0) 1 + (gd).offCoord (ix2 n 0) 1 = _
    have hnb : (1 : Fin 2) ∉ (gd).operandBatchingDims := fun h => absurd (List.mem_singleton.mp h) (by decide)
    have hc : (1 : Fin 2) ∈ (gd).collapsedSliceDims := List.mem_singleton.mpr rfl
    rw [GatherDims.batchCoord_eq_zero _ _ _ hnb,
      GatherDims.offCoord_eq_zero _ _ _ (fun h => ((GatherDims.mem_sKept _ _).mp h).1 hc)]
    simp only [Nat.add_zero]
    unfold GatherDims.start
    have hm : (1 : Fin 2) ∈ (gd).startIndexMap := List.mem_singleton.mpr rfl
    rw [dif_pos hm]
    have hsi : (gd).siIdx (ix2 n (0 : Fin 1)) ⟨List.idxOf (1 : Fin 2) (gd).startIndexMap,
        List.idxOf_lt_length_iff.2 hm⟩ = ix3 n (0 : Fin 1) (0 : Fin 1) := by
      funext b; refine Fin.ext ?_
      match b with
      | ⟨0, _⟩ => rfl
      | ⟨1, _⟩ => rfl
      | ⟨2, _⟩ => rfl
    rw [hsi]
    rfl

/-- A 32-bit word below 128 reads the same signed and unsigned. -/
theorem toInt_of_lt (w : BitVec 32) (h : w.toNat < 128) : w.toInt = (w.toNat : Int) := by
  rw [BitVec.toInt_eq_toNat_cond]
  split <;> omega

/-- Such a word is not negative: the signed "less than 0" test is 0. -/
theorem slt_zero_of_lt (w : BitVec 32) (h : w.toNat < 128) : IntOp.cmpi .slt w 0#32 = 0#1 := by
  have e0 : (0#32 : BitVec 32).toInt = 0 := by decide
  have hn : ¬ (w.toInt < (0#32 : BitVec 32).toInt) := by rw [toInt_of_lt w h, e0]; omega
  simp only [IntOp.cmpi, BitVec.slt, hn, decide_false]
  rfl

/-- It passes the signed "at least 0" test … -/
theorem sge_zero_of_lt (w : BitVec 32) (h : w.toNat < 128) : IntOp.cmpi .sge w 0#32 = 1#1 := by
  have e0 : (0#32 : BitVec 32).toInt = 0 := by decide
  have hp : (0#32 : BitVec 32).toInt ≤ w.toInt := by rw [toInt_of_lt w h, e0]; omega
  simp only [IntOp.cmpi, BitVec.sle, hp, decide_true]
  rfl

/-- … and the signed "at most 127" test. -/
theorem sle_127_of_lt (w : BitVec 32) (h : w.toNat < 128) : IntOp.cmpi .sle w 127#32 = 1#1 := by
  have e1 : (127#32 : BitVec 32).toInt = 127 := by decide
  have hp : w.toInt ≤ (127#32 : BitVec 32).toInt := by rw [toInt_of_lt w h, e1]; omega
  simp only [IntOp.cmpi, BitVec.sle, hp, decide_true]
  rfl

/-- Read signed and clamped into [0, 127], it is its unsigned value. -/
theorem clamp_of_lt (w : BitVec 32) (h : w.toNat < 128) : min w.toInt.toNat 127 = w.toNat := by
  rw [toInt_of_lt w h, Int.toNat_natCast]
  omega

/-- A left fold by `and` from 1 over one-bit words that are all 1 is 1. -/
theorem foldl_andi_one {ι : Type} (f : ι → BitVec 1) :
    ∀ l : List ι, (∀ i ∈ l, f i = 1#1) → l.foldl (fun r i => IntOp.andi r (f i)) 1#1 = 1#1
  | [], _ => rfl
  | a :: l, h => by
    rw [List.foldl_cons, h a List.mem_cons_self]
    exact foldl_andi_one f l (fun i hi => h i (List.mem_cons_of_mem _ hi))

/-- The start-index word at index (n, a, b) of the reshaped index array: where row n's target word is below 128 the
    wrap of negative words does not bind, and the word is the target word itself. -/
theorem idxword_at (t : IVec S2097152 32) (ht : ∀ n : Fin 2097152, (t (ix1 n)).toNat < 128)
    (n : Fin 2097152) (a b : Fin 1) :
    ReadP.val_main_call1_v5 (F := Ideal) t (ix3 n a b) = t (ix1 n) := by
  rw [ReadP.val_main_call1_v5_apply, ReadP.val_main_call1_v4_apply, ReadP.val_main_call1_v1_apply,
    ReadP.val_main_v1_apply, ReadP.val_main_call1_v0_apply, ReadP.val_main_call1_c_apply]
  have hi : ReadP.idx_main_v1 (ReadP.idx_main_call1_v5 (ix3 n a b)) = ix1 n :=
    funext fun c => by
      match c with
      | ⟨0, _⟩ =>
        refine Fin.ext ?_
        have h1 : a.val < 1 := a.isLt
        have h2 : b.val < 1 := b.isLt
        show ((n.val * 1 + a.val) * 1 + b.val) / 1 = n.val
        omega
  rw [hi, slt_zero_of_lt _ (ht n), select_zero]

/-- The in-range mask before its reduction: at every index both signed tests pass. -/
theorem mask_elem (t : IVec S2097152 32) (ht : ∀ n : Fin 2097152, (t (ix1 n)).toNat < 128) (i : S2097152x1x1.Idx) :
    ReadP.val_main_call1_v11 (F := Ideal) t i = 1#1 := by
  obtain ⟨n, a, b, rfl⟩ : ∃ (n : Fin 2097152) (a b : Fin 1), i = ix3 n a b := ⟨i 0, i 1, i 2, eq_ix3 i⟩
  rw [ReadP.val_main_call1_v11_apply, ReadP.val_main_call1_v7_apply, ReadP.val_main_call1_v10_apply,
    ReadP.val_main_call1_v6_apply, ReadP.val_main_call1_c_2_apply, ReadP.val_main_call1_v9_apply,
    ReadP.val_main_call1_v8_apply, ReadP.val_main_call1_c_1_apply, idxword_at t ht n a b,
    sge_zero_of_lt _ (ht n), sle_127_of_lt _ (ht n)]
  rfl

/-- The mask after its and-reduction over the unit axis, from 1: still 1 at every row. -/
theorem mask_row (t : IVec S2097152 32) (ht : ∀ n : Fin 2097152, (t (ix1 n)).toNat < 128) (j : S2097152x1.Idx) :
    ReadP.val_main_call1_v12 (F := Ideal) t j = 1#1 := by
  unfold ReadP.val_main_call1_v12
  rw [Host.reduce_eq_foldl]
  exact foldl_andi_one _ _ (fun i _ => mask_elem t ht i)

/-- The gathered stage at row n: the log-softmax of row n at the lane the target word names (a word below 128 is its own
    clamped signed reading). -/
theorem gathered_row (x : FVec Ideal S2097152x128 .f32) (t : IVec S2097152 32)
    (ht : ∀ n : Fin 2097152, (t (ix1 n)).toNat < 128) (n : Fin 2097152) :
    ReadP.val_main_call1_v13 (F := Ideal) x t (ix2 n (0 : Fin 1))
      = ReadP.val_main_v0 (F := Ideal) x (ix2 n ⟨(t (ix1 n)).toNat, ht n⟩) := by
  unfold ReadP.val_main_call1_v13
  rw [gather_row]
  refine congrArg (fun c : Fin 128 => ReadP.val_main_v0 (F := Ideal) x (ix2 n c)) (Fin.ext ?_)
  show min (ReadP.val_main_call1_v5 (F := Ideal) t (ix3 n (0 : Fin 1) (0 : Fin 1))).toInt.toNat 127 = (t (ix1 n)).toNat
  rw [idxword_at t ht n 0 0]
  exact clamp_of_lt _ (ht n)

/-- Row n of the negated stage: the row's cross entropy in the log-softmax form, −((x(n, k) − M) − L) with k the
    target; the mask being 1, the select takes the gathered value and not the fill. -/
theorem row_eq (x : FVec Ideal S2097152x128 .f32) (t : IVec S2097152 32)
    (ht : ∀ n : Fin 2097152, (t (ix1 n)).toNat < 128) (n : Fin 2097152) :
    ReadP.val_main_v4 (F := Ideal) x t (ix1 n) = CESum.rowCEgather (CESum.rowOf x n) (CESum.tgtOf t n) := by
  rw [ReadP.val_main_v4_apply, ReadP.val_main_v3_apply]
  have hi : ReadP.idx_main_v3 (ix1 n) = ix2 n (0 : Fin 1) := funext fun a => by
    match a with
    | ⟨0, _⟩ => exact Fin.ext (Nat.div_one _)
    | ⟨1, _⟩ => rfl
  rw [hi, ReadP.val_main_v2_apply, mask_row t ht, select_one, gathered_row x t ht n, logsoftmax_entry]
  unfold CESum.rowCEgather CESum.pick CESum.tgtOf
  rw [dif_pos (ht n)]
  rfl

/-- A rank-1 index of the targets' shape is its one coordinate. -/
def idxEquiv1 : S2097152.Idx ≃ Fin 2097152 where
  toFun j := j 0
  invFun n := ix1 n
  left_inv j := (eq_ix1 j).symm
  right_inv _ := rfl

/-- The summed stage: from the pattern 0 (which denotes 0), the sum over all rows of the rows' cross entropies. -/
theorem total_eq (x : FVec Ideal S2097152x128 .f32) (t : IVec S2097152 32)
    (ht : ∀ n : Fin 2097152, (t (ix1 n)).toNat < 128) :
    ReadP.val_main_v5 (F := Ideal) x t = fun _ => CESum.totalFlat x t := by
  funext i
  rw [ReadP.val_main_v5_apply, ReadP.val_main_cst_apply]
  show Ideal.ofBits .f32 0x00000000#32 + _ = _
  rw [Ideal.ofBits_zero_f32, zero_add]
  unfold CESum.totalFlat
  refine Fintype.sum_equiv idxEquiv1 _ _ (fun j => ?_)
  obtain ⟨n, rfl⟩ : ∃ n : Fin 2097152, j = ix1 n := ⟨j 0, eq_ix1 j⟩
  exact row_eq x t ht n

/-- With every target word below 128, the reference's last stage is the focal scaling of the flat total. -/
theorem value_eq (x : FVec Ideal S2097152x128 .f32) (t : IVec S2097152 32)
    (ht : ∀ n : Fin 2097152, (t (ix1 n)).toNat < 128) :
    Cert.ReferenceIdeal.ReadP.val_main_v10 (F := Ideal) x t = CESum.focalTail (fun _ => CESum.totalFlat x t) := by
  rw [tail_eq, total_eq x t ht]

end Cert.ReferenceIdeal.RefValue

end
-- ==== Proof.RefRunHand.lean ====
/-
  The reference program's run read stretch by stretch.  Its 49 host operations fall into three stretches: the
  log-softmax of the logits (the row maximum, the shifted exponentials' row sum, its logarithm, the two differences),
  the selection of each row's target entry (the index normalised, range-checked and gathered), and the tail (negate,
  sum over the rows, the focal scaling).  Each stretch is read from an arbitrary valuation of the buffers, as a
  function of the few buffers it reads; the run's value is the three readings composed.
-/
import proofs.«425999_j37306085933679_3_alg».proof.Proof.RefRead
import Idealize.ShloMosaic.Lib.StableHlo.Run

noncomputable section

namespace Cert.ReferenceIdeal.RunHand

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-- The buffer contents after two lines of operations one after the other: the second line's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- Contents moved to a typed reference's buffer type and back are the contents. -/
theorem ofBuf_toBuf {T : BufTy} (x : TRef sig T) (v : T.Contents (Elt F)) : x.ofBuf (x.toBuf v) = v := by
  obtain ⟨r, ty_eq, h2, h3⟩ := x
  subst ty_eq
  rfl

/-- The logits' buffer read at its tensor type: the contents as they are. -/
theorem ofBuf_arg0 (p1 p2 p3) (w : (Proc.devRef .tc main_arg0 : DevRef τ sig).ty.Contents (Elt F)) :
    (TRef.of (T := ⟨S2097152x128, .f32⟩) main_arg0 p1 p2 p3).ofBuf w = w := rfl

/-- A value written to the log-softmax's buffer: the value as it is. -/
theorem toBuf_v0 (p1 p2 p3) (v : (⟨S2097152x128, .f32⟩ : BufTy).Contents (Elt F)) :
    (TRef.of (T := ⟨S2097152x128, .f32⟩) main_v0 p1 p2 p3).toBuf v = v := rfl

/-- The log-softmax's buffer read at its tensor type: the contents as they are. -/
theorem ofBuf_v0 (p1 p2 p3) (w : (Proc.devRef .tc main_v0 : DevRef τ sig).ty.Contents (Elt F)) :
    (TRef.of (T := ⟨S2097152x128, .f32⟩) main_v0 p1 p2 p3).ofBuf w = w := rfl

/-- The targets' column buffer read at its tensor type: the contents as they are. -/
theorem ofBuf_v1 (p1 p2 p3) (w : (Proc.devRef .tc main_v1 : DevRef τ sig).ty.Contents (Elt F)) :
    (TRef.of (T := ⟨S2097152x1, .i32⟩) main_v1 p1 p2 p3).ofBuf w = w := rfl

/-- A value written to the target entries' buffer: the value as it is. -/
theorem toBuf_v2 (p1 p2 p3) (v : (⟨S2097152x1, .f32⟩ : BufTy).Contents (Elt F)) :
    (TRef.of (T := ⟨S2097152x1, .f32⟩) main_v2 p1 p2 p3).toBuf v = v := rfl

/-- The log-softmax stretch: 15 operations, ending in `main_v0`. -/
abbrev opsA : List (HloOp τ sig (Elt F)) :=
  [ TRef.nullary (TRef.of (T := ⟨S_, .f32⟩) main_call0_cst) (constant S_ .f32 0xFF800000#32),
    TRef.binary (TRef.of (T := ⟨S2097152x128, .f32⟩) main_arg0) (TRef.of (T := ⟨S_, .f32⟩) main_call0_cst) (TRef.of (T := ⟨S2097152, .f32⟩) main_call0_v0) (fun x v => Host.reduce FloatOps.maximumf x v reducesTo_S2097152x128_S2097152_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S2097152, .f32⟩) main_call0_v1) (broadcastInDim S2097152 ![] bcast_S_S2097152),
    TRef.binary (TRef.of (T := ⟨S2097152, .f32⟩) main_call0_v1) (TRef.of (T := ⟨S2097152, .f32⟩) main_call0_v0) (TRef.of (T := ⟨S2097152, .f32⟩) main_call0_v2) maximumf,
    TRef.unary (TRef.of (T := ⟨S2097152, .f32⟩) main_call0_v2) (TRef.of (T := ⟨S2097152x1, .f32⟩) main_call0_v3) (broadcastInDim S2097152x1 ![0] bcast_S2097152_S2097152x1_0),
    TRef.unary (TRef.of (T := ⟨S2097152x1, .f32⟩) main_call0_v3) (TRef.of (T := ⟨S2097152x128, .f32⟩) main_call0_v4) (broadcastInDim S2097152x128 ![0, 1] bcast_S2097152x1_S2097152x128_0_1),
    TRef.binary (TRef.of (T := ⟨S2097152x128, .f32⟩) main_arg0) (TRef.of (T := ⟨S2097152x128, .f32⟩) main_call0_v4) (TRef.of (T := ⟨S2097152x128, .f32⟩) main_call0_v5) subf,
    TRef.unary (TRef.of (T := ⟨S2097152x128, .f32⟩) main_call0_v5) (TRef.of (T := ⟨S2097152x128, .f32⟩) main_call0_v6) Host.exp,
    TRef.nullary (TRef.of (T := ⟨S_, .f32⟩) main_call0_cst_1) (constant S_ .f32 0x00000000#32),
    TRef.binary (TRef.of (T := ⟨S2097152x128, .f32⟩) main_call0_v6) (TRef.of (T := ⟨S_, .f32⟩) main_call0_cst_1) (TRef.of (T := ⟨S2097152, .f32⟩) main_call0_v7) (fun x v => Host.reduceAdd x v reducesTo_S2097152x128_S2097152_d1 h_S_),
    TRef.unary (TRef.of (T := ⟨S2097152, .f32⟩) main_call0_v7) (TRef.of (T := ⟨S2097152x1, .f32⟩) main_call0_v8) (broadcastInDim S2097152x1 ![0] bcast_S2097152_S2097152x1_0),
    TRef.unary (TRef.of (T := ⟨S2097152x1, .f32⟩) main_call0_v8) (TRef.of (T := ⟨S2097152x1, .f32⟩) main_call0_v9) Host.log,
    TRef.unary (TRef.of (T := ⟨S2097152x1, .f32⟩) main_call0_v9) (TRef.of (T := ⟨S2097152x128, .f32⟩) main_call0_v10) (broadcastInDim S2097152x128 ![0, 1] bcast_S2097152x1_S2097152x128_0_1),
    TRef.binary (TRef.of (T := ⟨S2097152x128, .f32⟩) main_call0_v5) (TRef.of (T := ⟨S2097152x128, .f32⟩) main_call0_v10) (TRef.of (T := ⟨S2097152x128, .f32⟩) main_v0) subf ]

/-- The target-entry stretch: 23 operations, ending in `main_v2`. -/
abbrev opsB : List (HloOp τ sig (Elt F)) :=
  [ unary main_arg1 main_v1 (broadcastInDim S2097152x1 ![0] bcast_S2097152_S2097152x1_0 : (⟨S2097152, .i32⟩ : BufTy).Contents (Elt F) → (⟨S2097152x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S2097152x1, .i32⟩) main_call1_v0) (broadcastInDim S2097152x1 ![] bcast_S_S2097152x1),
    TRef.binary (TRef.of (T := ⟨S2097152x1, .i32⟩) main_v1) (TRef.of (T := ⟨S2097152x1, .i32⟩) main_call1_v0) (TRef.of (T := ⟨S2097152x1, .i1⟩) main_call1_v1) (cmpi .slt),
    TRef.nullary (TRef.of (T := ⟨S_, .i32⟩) main_call1_c_0) (constantI S_ 32 128#32),
    TRef.unary (TRef.of (T := ⟨S_, .i32⟩) main_call1_c_0) (TRef.of (T := ⟨S2097152x1, .i32⟩) main_call1_v2) (broadcastInDim S2097152x1 ![] bcast_S_S2097152x1),
    TRef.binary (TRef.of (T := ⟨S2097152x1, .i32⟩) main_v1) (TRef.of (T := ⟨S2097152x1, .i32⟩) main_call1_v2) (TRef.of (T := ⟨S2097152x1, .i32⟩) main_call1_v3) addi,
    TRef.ternary (TRef.of (T := ⟨S2097152x1, .i1⟩) main_call1_v1) (TRef.of (T := ⟨S2097152x1, .i32⟩) main_call1_v3) (TRef.of (T := ⟨S2097152x1, .i32⟩) main_v1) (TRef.of (T := ⟨S2097152x1, .i32⟩) main_call1_v4) select,
    TRef.reshape (TRef.of (T := ⟨S2097152x1, .i32⟩) main_call1_v4) (TRef.of (T := ⟨S2097152x1x1, .i32⟩) main_call1_v5) rfl shapeCasts_S2097152x1_S2097152x1x1,
    TRef.nullary (TRef.of (T := ⟨S1, .i32⟩) main_call1_c_1) (constantI S1 32 127#32),
    TRef.nullary (TRef.of (T := ⟨S_, .i32⟩) main_call1_c_2) (constantI S_ 32 0#32),
    TRef.unary (TRef.of (T := ⟨S_, .i32⟩) main_call1_c_2) (TRef.of (T := ⟨S2097152x1x1, .i32⟩) main_call1_v6) (broadcastInDim S2097152x1x1 ![] bcast_S_S2097152x1x1),
    TRef.binary (TRef.of (T := ⟨S2097152x1x1, .i32⟩) main_call1_v5) (TRef.of (T := ⟨S2097152x1x1, .i32⟩) main_call1_v6) (TRef.of (T := ⟨S2097152x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S2097152x1x1, .i32⟩) main_call1_v9) (broadcastInDim S2097152x1x1 ![0, 1, 2] bcast_S1x1x1_S2097152x1x1_0_1_2),
    TRef.binary (TRef.of (T := ⟨S2097152x1x1, .i32⟩) main_call1_v5) (TRef.of (T := ⟨S2097152x1x1, .i32⟩) main_call1_v9) (TRef.of (T := ⟨S2097152x1x1, .i1⟩) main_call1_v10) (cmpi .sle),
    TRef.binary (TRef.of (T := ⟨S2097152x1x1, .i1⟩) main_call1_v7) (TRef.of (T := ⟨S2097152x1x1, .i1⟩) main_call1_v10) (TRef.of (T := ⟨S2097152x1x1, .i1⟩) main_call1_v11) andi,
    TRef.nullary (TRef.of (T := ⟨S_, .i1⟩) main_call1_c_3) (constantI S_ 1 1#1),
    TRef.binary (TRef.of (T := ⟨S2097152x1x1, .i1⟩) main_call1_v11) (TRef.of (T := ⟨S_, .i1⟩) main_call1_c_3) (TRef.of (T := ⟨S2097152x1, .i1⟩) main_call1_v12) (fun x v => Host.reduce IntOp.andi x v reducesTo_S2097152x1x1_S2097152x1_d2 h_S_),
    TRef.binary (TRef.of (T := ⟨S2097152x128, .f32⟩) main_v0) (TRef.of (T := ⟨S2097152x1x1, .i32⟩) main_call1_v5) (TRef.of (T := ⟨S2097152x1, .f32⟩) main_call1_v13) (fun x i => Host.gather gather_S2097152x128_S2097152x1x1_S2097152x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S2097152x1, .f32⟩) main_call1_v14) (broadcastInDim S2097152x1 ![] bcast_S_S2097152x1),
    TRef.ternary (TRef.of (T := ⟨S2097152x1, .i1⟩) main_call1_v12) (TRef.of (T := ⟨S2097152x1, .f32⟩) main_call1_v13) (TRef.of (T := ⟨S2097152x1, .f32⟩) main_call1_v14) (TRef.of (T := ⟨S2097152x1, .f32⟩) main_v2) select ]

/-- The tail: 11 operations, ending in `main_v10`. -/
abbrev opsC : List (HloOp τ sig (Elt F)) :=
  [ reshape main_v2 main_v3 rfl shapeCasts_S2097152x1_S2097152,
    unary main_v3 main_v4 (Host.negf : (⟨S2097152, .f32⟩ : BufTy).Contents (Elt F) → (⟨S2097152, .f32⟩ : BufTy).Contents (Elt F)),
    nullary main_cst (constant S_ .f32 0x00000000#32),
    binary main_v4 main_cst main_v5 ((fun x v => Host.reduceAdd x v reducesTo_S2097152_S_d0 h_S_) : (⟨S2097152, .f32⟩ : BufTy).Contents (Elt F) → (⟨S_, .f32⟩ : BufTy).Contents (Elt F) → (⟨S_, .f32⟩ : BufTy).Contents (Elt F)),
    unary main_v5 main_v6 (Host.negf : (⟨S_, .f32⟩ : BufTy).Contents (Elt F) → (⟨S_, .f32⟩ : BufTy).Contents (Elt F)),
    unary main_v6 main_v7 (Host.exp : (⟨S_, .f32⟩ : BufTy).Contents (Elt F) → (⟨S_, .f32⟩ : BufTy).Contents (Elt F)),
    nullary main_cst_0 (constant S_ .f32 0x3F800000#32),
    binary main_cst_0 main_v7 main_v8 (subf : (⟨S_, .f32⟩ : BufTy).Contents (Elt F) → (⟨S_, .f32⟩ : BufTy).Contents (Elt F) → (⟨S_, .f32⟩ : BufTy).Contents (Elt F)),
    nullary main_cst_1 (constant S_ .f32 0x40000000#32),
    binary main_v8 main_cst_1 main_v9 (Host.powf : (⟨S_, .f32⟩ : BufTy).Contents (Elt F) → (⟨S_, .f32⟩ : BufTy).Contents (Elt F) → (⟨S_, .f32⟩ : BufTy).Contents (Elt F)),
    binary main_v9 main_v5 main_v10 (mulf : (⟨S_, .f32⟩ : BufTy).Contents (Elt F) → (⟨S_, .f32⟩ : BufTy).Contents (Elt F) → (⟨S_, .f32⟩ : BufTy).Contents (Elt F)) ]

/-- The program's operations are the three stretches in order. -/
theorem ops_split : (ValueP.ops : List (HloOp τ sig (Elt F))) = opsA ++ (opsB ++ opsC) := rfl

/-- The log-softmax stretch from any valuation: `main_v0` ends at the log-softmax of `main_arg0`'s contents. -/
theorem stretchA (V : Valuation τ sig (Elt F)) :
    after opsA V (Proc.devRef .tc main_v0) = val_main_v0 (F := F) (V (Proc.devRef .tc main_arg0)) := by
  after_results_simp
  simp only [ofBuf_toBuf, ofBuf_arg0, toBuf_v0]
  unfold val_main_v0 val_main_call0_v10 val_main_call0_v9 val_main_call0_v8 val_main_call0_v7 val_main_call0_cst_1
    val_main_call0_v6 val_main_call0_v5 val_main_call0_v4 val_main_call0_v3 val_main_call0_v2 val_main_call0_v1
    val_main_call0_cst_0 val_main_call0_v0 val_main_call0_cst
  rfl

/-- The log-softmax stretch writes none of the targets' buffer. -/
theorem stretchA_arg1 (V : Valuation τ sig (Elt F)) :
    after opsA V (Proc.devRef .tc main_arg1) = V (Proc.devRef .tc main_arg1) := by
  after_results_simp

/-- Each row's target entry of a log-softmax `lp`, as the reference takes it: the target index normalised, gathered, and
    replaced by the not-a-number word where it is out of range. -/
def pickOf (lp : (⟨S2097152x128, .f32⟩ : BufTy).Contents (Elt F)) (t : (⟨S2097152, .i32⟩ : BufTy).Contents (Elt F)) :
    (⟨S2097152x1, .f32⟩ : BufTy).Contents (Elt F) :=
  select (val_main_call1_v12 (F := F) t)
    (Host.gather gather_S2097152x128_S2097152x1x1_S2097152x1_n_1_0_0_1_2_11 lp (val_main_call1_v5 (F := F) t))
    (val_main_call1_v14 (F := F))

/-- At the log-softmax of the logits it is the reference's staged value. -/
theorem pickOf_eq (x0 : (⟨S2097152x128, .f32⟩ : BufTy).Contents (Elt F)) (x1 : (⟨S2097152, .i32⟩ : BufTy).Contents (Elt F)) :
    pickOf (val_main_v0 (F := F) x0) x1 = val_main_v2 (F := F) x0 x1 := by
  unfold pickOf val_main_v2 val_main_call1_v13
  rfl

/-- The column of entries as a vector. -/
def flatOf (g : (⟨S2097152x1, .f32⟩ : BufTy).Contents (Elt F)) : (⟨S2097152, .f32⟩ : BufTy).Contents (Elt F) :=
  shapeCast _ g shapeCasts_S2097152x1_S2097152

/-- The sum of the negated entries, from zero. -/
def sumOf (g : (⟨S2097152x1, .f32⟩ : BufTy).Contents (Elt F)) : (⟨S_, .f32⟩ : BufTy).Contents (Elt F) :=
  Host.reduceAdd (Host.negf (flatOf g)) (val_main_cst (F := F)) reducesTo_S2097152_S_d0 h_S_

/-- The tail: the focal scaling `(1 − exp (−S))² · S` of that sum `S`. -/
def tailOf (g : (⟨S2097152x1, .f32⟩ : BufTy).Contents (Elt F)) : (⟨S_, .f32⟩ : BufTy).Contents (Elt F) :=
  mulf (Host.powf (subf (val_main_cst_0 (F := F)) (Host.exp (Host.negf (sumOf g)))) (val_main_cst_1 (F := F))) (sumOf g)

/-- At the reference's target entries it is the reference's staged result. -/
theorem tailOf_eq (x0 : (⟨S2097152x128, .f32⟩ : BufTy).Contents (Elt F)) (x1 : (⟨S2097152, .i32⟩ : BufTy).Contents (Elt F)) :
    tailOf (val_main_v2 (F := F) x0 x1) = val_main_v10 (F := F) x0 x1 := by
  unfold tailOf sumOf flatOf val_main_v10 val_main_v9 val_main_v8 val_main_v7 val_main_v6 val_main_v5 val_main_v4 val_main_v3
  rfl

/-- The target-entry stretch from any valuation: `main_v2` ends at the target entries of `main_v0`'s contents. -/
theorem stretchB (V : Valuation τ sig (Elt F)) :
    after opsB V (Proc.devRef .tc main_v2) = pickOf (F := F) (V (Proc.devRef .tc main_v0)) (V (Proc.devRef .tc main_arg1)) := by
  after_results_simp
  simp only [ofBuf_toBuf, ofBuf_v0, ofBuf_v1, toBuf_v2]
  unfold pickOf val_main_call1_v14 val_main_call1_cst val_main_call1_v12 val_main_call1_c_3 val_main_call1_v11
    val_main_call1_v10 val_main_call1_v9 val_main_call1_v8 val_main_call1_c_1 val_main_call1_v7 val_main_call1_v6
    val_main_call1_c_2 val_main_call1_v5 val_main_call1_v4 val_main_call1_v3 val_main_call1_v2 val_main_call1_c_0
    val_main_call1_v1 val_main_call1_v0 val_main_call1_c val_main_v1
  rfl

/-- The tail from any valuation: `main_v10` ends at the focal scaling of the negated sum of `main_v2`'s contents. -/
theorem stretchC (V : Valuation τ sig (Elt F)) :
    after opsC V (Proc.devRef .tc main_v10) = tailOf (F := F) (V (Proc.devRef .tc main_v2)) := by
  after_results_simp
  unfold tailOf sumOf flatOf val_main_cst val_main_cst_0 val_main_cst_1
  rfl

/-- The whole line from any valuation: the three readings composed are the reference's staged result. -/
theorem after_ops (V : Valuation τ sig (Elt F)) :
    after ValueP.ops V (Proc.devRef .tc main_v10)
      = val_main_v10 (F := F) (V (Proc.devRef .tc main_arg0)) (V (Proc.devRef .tc main_arg1)) := by
  rw [ops_split, after_append, after_append, stretchC, stretchB, stretchA, stretchA_arg1, pickOf_eq, tailOf_eq]

/-- On every device, for any float values, from any memory with zero counters: every weakly fair execution of the
    reference's @main terminates with the result at the staged value of the arguments and the arguments unchanged. -/
theorem run_val (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v10) = Cert.ReferenceIdeal.ReadP.val_main_v10 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v10).trans (after_ops (launchContents m c)),
      (h c main_arg0).trans (by after_results_simp <;> rfl),
      (h c main_arg1).trans (by after_results_simp <;> rfl)⟩)
    (run_seq ValueP.scopedRefs_eq ValueP.scopedSems_eq defs main (fun _ => ValueP.ops) ValueP.main_eq (fun _ => ValueP.ops_sub) m ρ)

end Cert.ReferenceIdeal.RunHand

end
-- ==== Proof.Algebra.lean ====
/-
  The algebra between the two forms of the cross-entropy sum (the definitions are in the specification module):
  on a row of finite logits with a target below 128 the masked-sum form and the log-softmax form are the same
  extended real (the shift `(b + L) − a = −((a − b) − L)` holds for real `a`, `b` and any `L`; the masked
  lane sum has one nonzero term), and a sum over cores, tiles and rows of a tile is the sum over all rows
  (the row number is `(p · 128 + l) · 8192 + r`, a bijection onto `Fin 2097152`).
-/
import proofs.«425999_j37306085933679_3_alg».proof.Proof.Spec

noncomputable section

open scoped BigOperators

namespace CESum

open Idealize.ShloMosaic Idealize.ShloMosaic.ValueIdx

/-! ## One row -/

/-- A fold of `max` from −∞ over coerced reals is −∞ or a coerced real. -/
theorem fold_max_bot_or_real {ι : Type*} [DecidableEq ι] (v : ι → EReal) (hv : ∀ c, ∃ r : ℝ, v c = (r : EReal))
    (s : Finset ι) : s.fold max ⊥ v = ⊥ ∨ ∃ r : ℝ, s.fold max ⊥ v = (r : EReal) := by
  induction s using Finset.induction_on with
  | empty => left; simp
  | insert a s ha ih =>
    right
    rw [Finset.fold_insert ha]
    obtain ⟨ra, hra⟩ := hv a
    rcases ih with h | ⟨r, hr⟩
    · rw [h, hra]; exact ⟨ra, by simp⟩
    · rw [hr, hra]; exact ⟨max ra r, (EReal.coe_strictMono.monotone.map_max).symm⟩

/-- The maximum of finitely many reals, folded from −∞ over a nonempty index set, is a real. -/
theorem rowMax_real (v : Fin 128 → EReal) (hv : ∀ c, ∃ r : ℝ, v c = (r : EReal)) : ∃ r : ℝ, rowMax v = (r : EReal) := by
  unfold rowMax
  rcases fold_max_bot_or_real v hv Finset.univ with h | h
  · exfalso
    have h0 : v 0 ≤ (Finset.univ : Finset (Fin 128)).fold max ⊥ v :=
      (Finset.le_fold_max _).2 (Or.inr ⟨0, Finset.mem_univ _, le_rfl⟩)
    obtain ⟨r, hr⟩ := hv 0
    rw [h, hr, le_bot_iff] at h0
    exact EReal.coe_ne_bot r h0
  · exact h

/-- The masked lane sum picks the target entry. -/
theorem mask_sum (v : Fin 128 → EReal) (tg : BitVec 32) (h : tg.toNat < 128) :
    (∑ c : Fin 128, if BitVec.ofNat 32 c.val = tg then v c else 0) = v ⟨tg.toNat, h⟩ := by
  rw [Finset.sum_eq_single (⟨tg.toNat, h⟩ : Fin 128)]
  · simp
  · intro c _ hc
    rw [if_neg]
    intro hEq
    apply hc
    apply Fin.ext
    have := congrArg BitVec.toNat hEq
    rw [BitVec.toNat_ofNat] at this
    have hc' := c.isLt
    simp only
    omega
  · intro hn; exact absurd (Finset.mem_univ _) hn

/-- For reals `a`, `b` and any extended real `L`: `(b + L) − a = −((a − b) − L)`. -/
theorem shift_law (a b : ℝ) (L : EReal) : ((b : EReal) + L) - (a : EReal) = -(((a : EReal) - (b : EReal)) - L) := by
  induction L using EReal.rec with
  | bot => rw [EReal.add_bot, EReal.bot_sub, ← EReal.coe_sub, EReal.coe_sub_bot, EReal.neg_top]
  | coe l => norm_cast; ring
  | top => simp

/-- On a finite row with a target below 128 the two forms of the cross entropy agree. -/
theorem rowCE_eq (v : Fin 128 → EReal) (tg : BitVec 32) (hv : ∀ c, ∃ r : ℝ, v c = (r : EReal)) (h : tg.toNat < 128) :
    rowCEmask v tg = rowCEgather v tg := by
  unfold rowCEmask rowCEgather pick
  rw [dif_pos h, mask_sum v tg h]
  obtain ⟨a, ha⟩ := hv ⟨tg.toNat, h⟩
  obtain ⟨b, hb⟩ := rowMax_real v hv
  rw [ha, hb]
  exact shift_law a b _

/-! ## All rows -/

/-- The row number as a bijection from (core, tile, row of the tile) onto all rows. -/
def tileEquiv : Fin 2 × Fin 128 × Fin 8192 ≃ Fin 2097152 where
  toFun x := gidx x.1 x.2.1 x.2.2
  invFun n := (⟨n.val / 1048576, by have := n.isLt; omega⟩, ⟨n.val / 8192 % 128, Nat.mod_lt _ (by norm_num)⟩,
    ⟨n.val % 8192, Nat.mod_lt _ (by norm_num)⟩)
  left_inv x := by
    obtain ⟨p, l, r⟩ := x
    have := p.isLt; have := l.isLt; have := r.isLt
    refine Prod.ext (Fin.ext ?_) (Prod.ext (Fin.ext ?_) (Fin.ext ?_)) <;> simp only [gidx] <;> omega
  right_inv n := by
    have := n.isLt
    apply Fin.ext
    simp only [gidx]
    omega

/-- Summing over cores, tiles and a tile's rows is summing over all rows. -/
theorem sum_tiles (f : Fin 2097152 → EReal) :
    (∑ p : Fin 2, ∑ l : Fin 128, ∑ r : Fin 8192, f (gidx p l r)) = ∑ n : Fin 2097152, f n := by
  rw [← Equiv.sum_comp tileEquiv f, Fintype.sum_prod_type]
  refine Finset.sum_congr rfl fun p _ => ?_
  rw [Fintype.sum_prod_type]
  rfl

/-- Under finite logits and targets below 128 the two totals are equal. -/
theorem total_eq (x : SX.Idx → EReal) (t : ST.Idx → BitVec 32) (hx : ∀ i, ∃ r : ℝ, x i = (r : EReal))
    (ht : ∀ n : Fin 2097152, (t (ix1 n)).toNat < 128) : totalTiled x t = totalFlat x t := by
  unfold totalTiled totalFlat
  rw [← sum_tiles]
  refine Finset.sum_congr rfl fun p _ => Finset.sum_congr rfl fun l _ => Finset.sum_congr rfl fun r _ => ?_
  exact rowCE_eq _ _ (fun c => hx _) (ht _)

end CESum

end
-- ==== Proof.PreDecode.lean ====
/-
  What the precondition says, decoded: every logit is a real number (its absolute value is below +∞), and every
  target word, read signed, lies in [0, 128) — so its unsigned value is below 128.
-/
import proofs.«425999_j37306085933679_3_alg».proof.Pre_finite_inputs
import proofs.«425999_j37306085933679_3_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreDecode

open Idealize.ShloMosaic Idealize.ShloMosaic.ValueIdx

/-- A reduction over all axes has a result of one index. -/
instance : Subsingleton Cert.Pre_finite_inputs.S_.Idx := ⟨fun a b => funext fun d => d.elim0⟩

/-- On the extended reals, |a| = max a (-a) below +∞ leaves only the reals: at ⊥ and at ⊤ the maximum is ⊤. -/
theorem real_of_abs_lt_top (a : EReal) (h : max a (-a) < ⊤) : ∃ r : ℝ, a = (r : EReal) := by
  induction a using EReal.rec with
  | bot => simp at h
  | top => simp at h
  | coe r => exact ⟨r, rfl⟩

/-- The printed element test: |a| compared "less than" with the pattern 0x7F800000, which denotes +∞ (exponent all
    ones, fraction zero, sign clear). Where the comparison is 1, a is a real. -/
theorem real_of_olt_inf (a : Ideal .f32)
    (h : FloatOps.cmpf .olt (FloatOps.hostAbsf a) (FloatOps.ofBits (F := Ideal) .f32 0x7F800000#32) = 1#1) :
    ∃ r : ℝ, (a : EReal) = (r : EReal) := by
  have htop : Ideal.ofBits .f32 0x7F800000#32 = ⊤ := by simp [Ideal.ofBits, Ideal.ieee]
  have h' : Ideal.cmp .olt (max (a : EReal) (-(a : EReal))) (Ideal.ofBits .f32 0x7F800000#32) = 1#1 := h
  rw [htop] at h'
  simp only [Ideal.cmp, StableHlo.Predicate.ofBool_eq_one_iff, decide_eq_true_eq] at h'
  exact real_of_abs_lt_top a h'

/-- A 32-bit word that is, read signed, at least 0 and below 128 has unsigned value below 128: a word at or above 2³¹
    reads negative (its value less 2³²), and a word below 2³¹ reads as its unsigned value. -/
theorem toNat_lt_of_signed_range (w : BitVec 32) (h0 : IntOp.cmpi .sge w 0#32 = 1#1)
    (h1 : IntOp.cmpi .slt w 128#32 = 1#1) : w.toNat < 128 := by
  simp only [IntOp.cmpi, StableHlo.Predicate.ofBool_eq_one_iff, BitVec.sle, BitVec.slt, decide_eq_true_eq] at h0 h1
  have e0 : (0#32 : BitVec 32).toInt = 0 := by decide
  have e1 : (128#32 : BitVec 32).toInt = 128 := by decide
  rw [e0] at h0
  rw [e1] at h1
  rw [BitVec.toInt_eq_toNat_cond] at h0 h1
  split at h0 <;> omega

/-- The precondition, all ones, gives: every logit is a real, and every target word is below 128. -/
theorem decode [Cert.Pre_finite_inputs.Facts]
    (x : FVec Ideal Cert.Pre_finite_inputs.S2097152x128 .f32) (t : IVec Cert.Pre_finite_inputs.S2097152 32)
    (h : Cert.Pre_finite_inputs.fn (F := Ideal) x t = fun _ => 1#1) :
    (∀ i : Cert.Pre_finite_inputs.S2097152x128.Idx, ∃ r : ℝ, x i = (r : EReal))
      ∧ (∀ n : Fin 2097152, (t (ix1 n)).toNat < 128) := by
  -- the one element of the result
  have h0 := congrFun h ValueIdx.ix0
  dsimp only [Cert.Pre_finite_inputs.fn] at h0
  -- the last operation is the conjunction of the two all-reductions
  obtain ⟨hx, ht⟩ := IntOp.andi_eq_one.1 h0
  refine ⟨fun i => ?_, fun n => ?_⟩
  · -- every element of the float mask is 1: |x i| < +∞
    have e := Host.reduce_andi_all _ _ _ _ ix0 hx i
    exact real_of_olt_inf (x i) e
  · -- every element of the integer mask is 1: both signed comparisons hold at n
    have e := Host.reduce_andi_all _ _ _ _ ix0 ht (ix1 n)
    obtain ⟨e0, e1⟩ := IntOp.andi_eq_one.1 e
    exact toNat_lt_of_signed_range _ e0 e1

end Cert.PreDecode

end
-- ==== Proof.lean ====
/-
  The certificate of a cross-entropy-sum kernel with focal scaling against its jnp reference, over the extended reals.

  Inputs: logits `x` (2097152 × 128, finite) and class targets `t` (2097152 words, each in [0, 128)).
  The reference computes, per row, `−log_softmax(x)[t]` = `−((x_t − M) − L)` with `M` the row maximum and
  `L = log Σ_c exp (x_c − M)`, sums it over all rows to `S`, and returns `(1 − exp (−S))² · S`.
  The kernel tiles the rows 2 cores × 128 tiles × 8192 rows; per row it forms `(M + L) − Σ_c [c = t] x_c` (a masked
  lane sum picks the target logit), sums a tile's rows, adds the tile sum into its own lane of a 128-lane
  accumulator that the first tile of a core resets, writes the lane sum out at the core's last tile, and the host
  sums the two cores' entries to `S` and applies the same focal scaling.

  Why they agree: for finite logits and an in-range target the two per-row forms are the same real number
  (the shift law `(b + L) − a = −((a − b) − L)` for real `a`, `b`), and sums of extended reals may be
  re-grouped freely, so the tiled total is the flat total; the focal scaling is the same function on both sides.
  The target range is needed: for a target outside [0, 128) the mask selects nothing while the reference wraps a
  negative index or fills with an undefined value.

  The three frames are the generated frame certificates (the reference's is its run with the result dropped);
  the ideal pass rewrote nothing, so `preserves` is trivial.
-/
import proofs.«425999_j37306085933679_3_alg».proof.Defs
import proofs.«425999_j37306085933679_3_alg».proof.Proof.Gen.Kernel.Frame
import proofs.«425999_j37306085933679_3_alg».proof.Proof.Gen.KernelIdeal.Frame
import proofs.«425999_j37306085933679_3_alg».proof.Proof.Gen.ReferenceIdeal
import proofs.«425999_j37306085933679_3_alg».proof.Proof.Gen.Pre_finite_inputs
import proofs.«425999_j37306085933679_3_alg».proof.Proof.KTail
import proofs.«425999_j37306085933679_3_alg».proof.Proof.RefValue
import proofs.«425999_j37306085933679_3_alg».proof.Proof.RefRunHand
import proofs.«425999_j37306085933679_3_alg».proof.Proof.Algebra
import proofs.«425999_j37306085933679_3_alg».proof.Proof.PreDecode
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RunHand.run_val (F := Ideal) m ρ)

theorem preserves : Cert.preserves_Kernel_KernelIdeal := trivial

/-- At the ideal instance the kernel's result is the focal scaling of the tiled total and the reference's that of the
    flat total, of arguments that agree; under the precondition the two totals are equal. -/
theorem algebraic : Cert.algebraic_KernelIdeal_ReferenceIdeal := by
  intro m ρ m' ρ' hpre hagree
  refine ⟨fun c => CESum.focalTail (fun _ => CESum.totalTiled (Cert.KernelIdeal.KValue.xarg m c) (Cert.KernelIdeal.KValue.targ m c)),
    Cert.KernelIdeal.KValue.run_value m ρ, ?_⟩
  refine (θ_run Cert.ReferenceIdeal.defs _ _).mono (fun _ h c => ⟨(h c).1.trans ?_, (h c).2⟩)
    (Cert.ReferenceIdeal.RunHand.run_val (F := Ideal) m' ρ')
  obtain ⟨hx, ht⟩ := Cert.PreDecode.decode _ _ (hpre c)
  rw [(hagree c).1, (hagree c).2, Cert.ReferenceIdeal.RefValue.value_eq _ _ ht]
  exact congrArg CESum.focalTail (funext fun _ => (CESum.total_eq _ _ hx ht).symm)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
